-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v55_1)) (v1 : (c : Dev Cert.KernelIdeal.nD) → Buf (Elt Ideal) ((c.tc : Thread Cert.KernelIdeal.nD Cert.KernelIdeal.τ).loc Cert.KernelIdeal.main_v55_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_1) = v0 c
          ∧ r.2.mem ((c.tc : Thread Cert.KernelIdeal.nD Cert.KernelIdeal.τ).loc Cert.KernelIdeal.main_v55_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x64 .f32) (main_arg9 : FVec F S64 .f32) (main_arg10 : FVec F S64x64 .f32) (main_arg11 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S256 .f32) (main_arg6 : FVec F S256x128 .f32) (main_arg7 : FVec F S128 .f32) (main_arg8 : FVec F S128x64 .f32) (main_arg9 : FVec F S64 .f32) (main_arg10 : FVec F S64x64 .f32) (main_arg11 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) (main_arg6 : FVec F S256x128 .f32) (main_arg7 : FVec F S128 .f32) (main_arg8 : FVec F S128x64 .f32) (main_arg9 : FVec F S64 .f32) (main_arg10 : FVec F S64x64 .f32) (main_arg11 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x256 : Shape := ⟨2, ![2000, 256]⟩
abbrev S2000x1 : Shape := ⟨2, ![2000, 1]⟩
abbrev S800000x256 : Shape := ⟨2, ![800000, 256]⟩
abbrev S1x256 : Shape := ⟨2, ![1, 256]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 87
  | .vmem => 40
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000, .f32⟩
  | .hbm, ⟨37, _⟩ => ⟨S50000x1, .f32⟩
  | .hbm, ⟨38, _⟩ => ⟨S50000x256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S_, .f32⟩
  | .hbm, ⟨49, _⟩ => ⟨S50000x256, .f32⟩
  | .hbm, ⟨50, _⟩ => ⟨S800000x1, .i32⟩
  | .hbm, ⟨51, _⟩ => ⟨S50000x256, .f32⟩
  | .hbm, ⟨52, _⟩ => ⟨S1x256, .f32⟩
  | .hbm, ⟨53, _⟩ => ⟨S50000x256, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x256, .f32⟩
  | .hbm, ⟨63, _⟩ => ⟨S_, .f32⟩
  | .hbm, ⟨64, _⟩ => ⟨S50000x256, .f32⟩
  | .hbm, ⟨65, _⟩ => ⟨S800000x1, .i32⟩
  | .hbm, ⟨66, _⟩ => ⟨S50000x256, .f32⟩
  | .hbm, ⟨67, _⟩ => ⟨S1x256, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S1x128, .f32⟩
  | .hbm, ⟨83, _⟩ => ⟨S1x64, .f32⟩
  | .hbm, ⟨84, _⟩ => ⟨S1x64, .f32⟩
  | .hbm, ⟨85, _⟩ => ⟨S50000x128, .f32⟩
  | .hbm, ⟨86, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S256x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x1, .f32⟩
  | .local _ .vmem, ⟨13, _⟩ => ⟨S2000x1, .f32⟩
  | .local _ .vmem, ⟨14, _⟩ => ⟨S256x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x1, .f32⟩
  | .local _ .vmem, ⟨20, _⟩ => ⟨S2000x1, .f32⟩
  | .local _ .vmem, ⟨21, _⟩ => ⟨S1x256, .f32⟩
  | .local _ .vmem, ⟨22, _⟩ => ⟨S2000x1, .f32⟩
  | .local _ .vmem, ⟨23, _⟩ => ⟨S2000x1, .f32⟩
  | .local _ .vmem, ⟨24, _⟩ => ⟨S256x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x1, .f32⟩
  | .local _ .vmem, ⟨30, _⟩ => ⟨S2000x1, .f32⟩
  | .local _ .vmem, ⟨31, _⟩ => ⟨S1x128, .f32⟩
  | .local _ .vmem, ⟨32, _⟩ => ⟨S128x64, .f32⟩
  | .local _ .vmem, ⟨33, _⟩ => ⟨S1x64, .f32⟩
  | .local _ .vmem, ⟨34, _⟩ => ⟨S64x64, .f32⟩
  | .local _ .vmem, ⟨35, _⟩ => ⟨S1x64, .f32⟩
  | .local _ .vmem, ⟨36, _⟩ => ⟨S2000x128, .f32⟩
  | .local _ .vmem, ⟨37, _⟩ => ⟨S2000x128, .f32⟩
  | .local _ .vmem, ⟨38, _⟩ => ⟨S2000x64, .f32⟩
  | .local _ .vmem, ⟨39, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_9 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_11 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55_0 : Ref sig .tc := ⟨.hbm, 85, rfl⟩
abbrev main_v55_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg7_1 : Ref sig .tc := ⟨.vmem, 37, rfl⟩
abbrev cc3_stg8_0 : Ref sig .tc := ⟨.vmem, 38, rfl⟩
abbrev cc3_stg8_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem7_1 : DmaSem sig := 37
abbrev cc3_sem8_0 : DmaSem sig := 38
abbrev cc3_sem8_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S128_S1x128 : S128.ShapeCasts S1x128
  shapeCasts_S64_S1x64 : S64.ShapeCasts S1x64
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S50000x128.size a
  hwx3_7 : ∀ i : grid3.Coords, EltTy.bits .f32 = 32 ∨ (Rect.block (s := S50000x128) S2000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x64.size a ≤ S50000x64.size a
  hwx3_8 : ∀ i : grid3.Coords, EltTy.bits .f32 = 32 ∨ (Rect.block (s := S50000x64) S2000x64.size (cc3_transform_8 i) (hinb3_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v54) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v55_0) S2000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v55_1) S2000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 165
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x256, .f32⟩
  | 5 => ⟨S256, .f32⟩
  | 6 => ⟨S256x128, .f32⟩
  | 7 => ⟨S128, .f32⟩
  | 8 => ⟨S128x64, .f32⟩
  | 9 => ⟨S64, .f32⟩
  | 10 => ⟨S64x64, .f32⟩
  | 11 => ⟨S64, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S_, .f32⟩
  | 24 => ⟨S50000, .f32⟩
  | 25 => ⟨S50000, .f32⟩
  | 26 => ⟨S_, .f32⟩
  | 27 => ⟨S50000, .f32⟩
  | 28 => ⟨S800000x1, .i32⟩
  | 29 => ⟨S50000, .f32⟩
  | 30 => ⟨S_, .f32⟩
  | 31 => ⟨S_, .f32⟩
  | 32 => ⟨S50000, .f32⟩
  | 33 => ⟨S50000, .f32⟩
  | 34 => ⟨S50000, .f32⟩
  | 35 => ⟨S50000x1, .f32⟩
  | 36 => ⟨S50000x256, .f32⟩
  | 37 => ⟨S50000x256, .f32⟩
  | 38 => ⟨S50000x256, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x256, .f32⟩
  | 48 => ⟨S_, .f32⟩
  | 49 => ⟨S50000x256, .f32⟩
  | 50 => ⟨S800000x1, .i32⟩
  | 51 => ⟨S50000x256, .f32⟩
  | 52 => ⟨S50000, .f32⟩
  | 53 => ⟨S50000x1, .f32⟩
  | 54 => ⟨S50000x256, .f32⟩
  | 55 => ⟨S50000x256, .f32⟩
  | 56 => ⟨S1x256, .f32⟩
  | 57 => ⟨S50000x256, .f32⟩
  | 58 => ⟨S50000x256, .f32⟩
  | 59 => ⟨S_, .f32⟩
  | 60 => ⟨S50000x256, .f32⟩
  | 61 => ⟨S50000x256, .f32⟩
  | 62 => ⟨S_, .f32⟩
  | 63 => ⟨S800000, .f32⟩
  | 64 => ⟨S_, .f32⟩
  | 65 => ⟨S50000, .f32⟩
  | 66 => ⟨S800000x1, .i32⟩
  | 67 => ⟨S50000, .f32⟩
  | 68 => ⟨S_, .f32⟩
  | 69 => ⟨S_, .f32⟩
  | 70 => ⟨S50000, .f32⟩
  | 71 => ⟨S50000, .f32⟩
  | 72 => ⟨S_, .f32⟩
  | 73 => ⟨S50000, .f32⟩
  | 74 => ⟨S800000x1, .i32⟩
  | 75 => ⟨S50000, .f32⟩
  | 76 => ⟨S_, .f32⟩
  | 77 => ⟨S_, .f32⟩
  | 78 => ⟨S50000, .f32⟩
  | 79 => ⟨S50000, .f32⟩
  | 80 => ⟨S50000, .f32⟩
  | 81 => ⟨S50000x1, .f32⟩
  | 82 => ⟨S50000x256, .f32⟩
  | 83 => ⟨S50000x256, .f32⟩
  | 84 => ⟨S50000x256, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x256, .f32⟩
  | 94 => ⟨S_, .f32⟩
  | 95 => ⟨S50000x256, .f32⟩
  | 96 => ⟨S800000x1, .i32⟩
  | 97 => ⟨S50000x256, .f32⟩
  | 98 => ⟨S50000, .f32⟩
  | 99 => ⟨S50000x1, .f32⟩
  | 100 => ⟨S50000x256, .f32⟩
  | 101 => ⟨S50000x256, .f32⟩
  | 102 => ⟨S1x256, .f32⟩
  | 103 => ⟨S50000x256, .f32⟩
  | 104 => ⟨S50000x256, .f32⟩
  | 105 => ⟨S_, .f32⟩
  | 106 => ⟨S50000x256, .f32⟩
  | 107 => ⟨S50000x256, .f32⟩
  | 108 => ⟨S_, .f32⟩
  | 109 => ⟨S800000, .f32⟩
  | 110 => ⟨S_, .f32⟩
  | 111 => ⟨S50000, .f32⟩
  | 112 => ⟨S800000x1, .i32⟩
  | 113 => ⟨S50000, .f32⟩
  | 114 => ⟨S_, .f32⟩
  | 115 => ⟨S_, .f32⟩
  | 116 => ⟨S50000, .f32⟩
  | 117 => ⟨S50000, .f32⟩
  | 118 => ⟨S_, .f32⟩
  | 119 => ⟨S50000, .f32⟩
  | 120 => ⟨S800000x1, .i32⟩
  | 121 => ⟨S50000, .f32⟩
  | 122 => ⟨S_, .f32⟩
  | 123 => ⟨S_, .f32⟩
  | 124 => ⟨S50000, .f32⟩
  | 125 => ⟨S50000, .f32⟩
  | 126 => ⟨S50000, .f32⟩
  | 127 => ⟨S50000x1, .f32⟩
  | _ => ⟨S50000x256, .f32⟩

abbrev hbmTy0_1 (i : Nat) : BufTy := match i % 128 with
  | 0 => ⟨S50000x256, .f32⟩
  | 1 => ⟨S50000x256, .f32⟩
  | 2 => ⟨S50000x128, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S_, .f32⟩
  | 13 => ⟨S50000x128, .f32⟩
  | 14 => ⟨S800000x1, .i32⟩
  | 15 => ⟨S50000x128, .f32⟩
  | 16 => ⟨S50000, .f32⟩
  | 17 => ⟨S50000x1, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x64, .f32⟩
  | 27 => ⟨S1x64, .f32⟩
  | 28 => ⟨S50000x64, .f32⟩
  | 29 => ⟨S50000x64, .f32⟩
  | 30 => ⟨S_, .f32⟩
  | 31 => ⟨S50000x64, .f32⟩
  | 32 => ⟨S50000x64, .f32⟩
  | 33 => ⟨S50000x64, .f32⟩
  | 34 => ⟨S1x64, .f32⟩
  | 35 => ⟨S50000x64, .f32⟩
  | 36 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call2_cst : Ref sig .tc := ⟨.hbm, 59, rfl⟩
abbrev main_call2_v0 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_call3_v0 : Ref sig .tc := ⟨.hbm, 69, rfl⟩
abbrev main_call3_v1 : Ref sig .tc := ⟨.hbm, 70, rfl⟩
abbrev main_v40 : Ref sig .tc := ⟨.hbm, 71, rfl⟩
abbrev main_cst_9 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_10 : Ref sig .tc := ⟨.hbm, 76, rfl⟩
abbrev main_call4_v0 : Ref sig .tc := ⟨.hbm, 77, rfl⟩
abbrev main_call4_v1 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_11 : Ref sig .tc := ⟨.hbm, 85, rfl⟩
abbrev main_v50 : Ref sig .tc := ⟨.hbm, 86, rfl⟩
abbrev main_v51 : Ref sig .tc := ⟨.hbm, 87, rfl⟩
abbrev main_c_12 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_13 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_call5_cst : Ref sig .tc := ⟨.hbm, 105, rfl⟩
abbrev main_call5_v0 : Ref sig .tc := ⟨.hbm, 106, rfl⟩
abbrev main_v67 : Ref sig .tc := ⟨.hbm, 107, rfl⟩
abbrev main_cst_14 : Ref sig .tc := ⟨.hbm, 108, rfl⟩
abbrev main_v68 : Ref sig .tc := ⟨.hbm, 109, rfl⟩
abbrev main_cst_15 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_16 : Ref sig .tc := ⟨.hbm, 114, rfl⟩
abbrev main_call6_v0 : Ref sig .tc := ⟨.hbm, 115, rfl⟩
abbrev main_call6_v1 : Ref sig .tc := ⟨.hbm, 116, rfl⟩
abbrev main_v72 : Ref sig .tc := ⟨.hbm, 117, rfl⟩
abbrev main_cst_17 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_18 : Ref sig .tc := ⟨.hbm, 122, rfl⟩
abbrev main_call7_v0 : Ref sig .tc := ⟨.hbm, 123, rfl⟩
abbrev main_call7_v1 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_c_19 : Ref sig .tc := ⟨.hbm, 131, rfl⟩
abbrev main_v82 : Ref sig .tc := ⟨.hbm, 132, rfl⟩
abbrev main_v83 : Ref sig .tc := ⟨.hbm, 133, rfl⟩
abbrev main_c_20 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_cst_21 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_call8_cst : Ref sig .tc := ⟨.hbm, 151, rfl⟩
abbrev main_call8_v0 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_call9_cst : Ref sig .tc := ⟨.hbm, 158, rfl⟩
abbrev main_call9_v0 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.LibGraphLayer.lean ====
/-
  General lemmas. The dense part of one graph-convolution layer on row-major matrices of exact values, from four
  operations that each act row by row: a row scaling (every row times its own scalar), a row bias (one row vector added
  to every row), the positive part, and the matrix product. Each commutes with picking rows, so a block of rows of a
  layer's result is the layer applied to that block of rows. The two ways a program spells each operation are reduced
  to it: a vector unit's broadcasts, splat zero and plain product of narrowed operands into a zero accumulator, and the
  host's broadcasts in dimensions, broadcast zero constant and contraction. All sizes are generic.
-/
import Idealize.ShloMosaic.Lib.ValueIdx
import Idealize.ShloMosaic.Lib.ValueLayout
import Idealize.ShloMosaic.Lib.Pipeline.Value
import Idealize.ShloMosaic.PureOps.Ideal.Laws
import proofs.«162830_j76012331205027_1_alg».proof.Proof.LibMatmulPlain

noncomputable section

namespace Idealize.ShloMosaic.GraphLayer

open Idealize.ShloMosaic Idealize.ShloMosaic.ValueIdx

/-- A row-major matrix of exact values. -/
abbrev Mat (n d : ℕ) := FVec Ideal ⟨2, ![n, d]⟩ .f32

variable {N T D E : ℕ}

/-- Each row multiplied by that row's scalar: entry (r, q) is a (r, q) · s (r, 0). -/
def rowScale (a : Mat N D) (s : Mat N 1) : Mat N D := fun i => a i * s (ix2 (i 0) 0)
/-- A row vector added to every row: entry (r, q) is z (r, q) + b (0, q). -/
def rowBias (z : Mat N D) (b : Mat 1 D) : Mat N D := fun i => z i + b (ix2 0 (i 1))
/-- The positive part, entry by entry. -/
def relu (z : Mat N D) : Mat N D := fun i => max (z i) (Ideal.ofBits .f32 0x00000000#32)
/-- The matrix product: entry (r, q) is ∑ k, h (r, k) · w (k, q). -/
def product (h : Mat N D) (w : Mat D E) : Mat N E := fun i => ∑ k : Fin D, h (ix2 (i 0) k) * w (ix2 k (i 1))
/-- The rows picked by ρ, in ρ's order. -/
def rows (ρ : Fin T → Fin N) (x : Mat N D) : Mat T D := fun i => x (ix2 (ρ (i 0)) (i 1))

theorem rowScale_apply (a : Mat N D) (s : Mat N 1) (r : Fin N) (q : Fin D) : rowScale a s (ix2 r q) = a (ix2 r q) * s (ix2 r 0) := rfl
theorem rowBias_apply (z : Mat N D) (b : Mat 1 D) (r : Fin N) (q : Fin D) : rowBias z b (ix2 r q) = z (ix2 r q) + b (ix2 0 q) := rfl
theorem relu_apply (z : Mat N D) (i) : relu z i = max (z i) (Ideal.ofBits .f32 0x00000000#32) := rfl
theorem product_apply (h : Mat N D) (w : Mat D E) (r : Fin N) (q : Fin E) : product h w (ix2 r q) = ∑ k : Fin D, h (ix2 r k) * w (ix2 k q) := rfl
theorem rows_apply (ρ : Fin T → Fin N) (x : Mat N D) (p : Fin T) (q : Fin D) : rows ρ x (ix2 p q) = x (ix2 (ρ p) q) := rfl

/-! ## Each operation acts row by row: it commutes with picking rows -/

theorem rows_rowScale (ρ : Fin T → Fin N) (a : Mat N D) (s : Mat N 1) : rows ρ (rowScale a s) = rowScale (rows ρ a) (rows ρ s) := rfl
theorem rows_rowBias (ρ : Fin T → Fin N) (z : Mat N D) (b : Mat 1 D) : rows ρ (rowBias z b) = rowBias (rows ρ z) b := rfl
theorem rows_relu (ρ : Fin T → Fin N) (z : Mat N D) : rows ρ (relu z) = relu (rows ρ z) := rfl
theorem rows_product (ρ : Fin T → Fin N) (h : Mat N D) (w : Mat D E) : rows ρ (product h w) = product (rows ρ h) w := rfl

/-! ## The spellings of a vector unit -/

/-- A column broadcast along the rows: entry (p, q) of the broadcast is the column's entry (p, 0). -/
theorem broadcastTo_col_apply {α : Type} (v : (⟨2, ![T, 1]⟩ : Shape).Idx → α) (h : (⟨2, ![T, 1]⟩ : Shape).Broadcasts ⟨2, ![T, D]⟩)
    (p : Fin T) (q : Fin D) : broadcastTo ⟨2, ![T, D]⟩ v h (ix2 p q) = v (ix2 p (0 : Fin 1)) := by
  refine broadcastTo_apply v h (ix2 p q) (ix2 p (0 : Fin 1)) fun ax => ?_
  match ax with
  | ⟨0, _⟩ =>
    show p.val = if T = 1 then 0 else p.val
    split
    · have := p.isLt; omega
    · rfl
  | ⟨1, _⟩ => rfl

/-- A product by a broadcast column is the row scaling. -/
theorem mulf_broadcastTo_col (a : Mat T D) (s : Mat T 1) (h : (⟨2, ![T, 1]⟩ : Shape).Broadcasts ⟨2, ![T, D]⟩) :
    mulf a (broadcastTo ⟨2, ![T, D]⟩ s h) = rowScale a s := by
  funext i
  obtain ⟨p, q, rfl⟩ : ∃ (p : Fin T) (q : Fin D), i = ix2 p q := ⟨i 0, i 1, eq_ix2 i⟩
  rw [mulf_apply, broadcastTo_col_apply, rowScale_apply]

/-- A sum with a broadcast row is the row bias. -/
theorem addf_broadcastTo_row (z : Mat T D) (b : Mat 1 D) (h : (⟨2, ![1, D]⟩ : Shape).Broadcasts ⟨2, ![T, D]⟩) :
    addf z (broadcastTo ⟨2, ![T, D]⟩ b h) = rowBias z b := by
  funext i
  obtain ⟨p, q, rfl⟩ : ∃ (p : Fin T) (q : Fin D), i = ix2 p q := ⟨i 0, i 1, eq_ix2 i⟩
  rw [addf_apply, broadcastTo_1b_ab_apply, rowBias_apply]

/-- The maximum with a splat zero is the positive part. -/
theorem maximumf_broadcast_zero (z : Mat T D) :
    maximumf z (broadcast ⟨2, ![T, D]⟩ (Scalar.ofBits (F := Ideal) .f32 0x00000000#32)) = relu z := rfl

/-- The plain product of two operands narrowed to a shorter format, into a zero accumulator, is the matrix product:
    a change of format is the identity on exact values. -/
theorem matmul_truncf_zero (h : Mat T D) (w : Mat D E) (hb : FTy.bits .bf16 < FTy.bits .f32) :
    matmul (DotDims.plain T D E) none (truncf .bf16 h hb) (truncf .bf16 w hb) (constant ⟨2, ![T, E]⟩ .f32 0x00000000#32)
      = product h w := by
  funext i
  obtain ⟨p, q, rfl⟩ : ∃ (p : Fin T) (q : Fin E), i = ix2 p q := ⟨i 0, i 1, eq_ix2 i⟩
  rw [MatmulPlain.matmul_zero_apply]
  rfl

/-! ## The spellings of the host -/

/-- A column broadcast in dimensions [0, 1]: entry (p, q) is the column's entry (p, 0). -/
theorem broadcastInDim_col_apply {α : Type} (v : (⟨2, ![N, 1]⟩ : Shape).Idx → α) (h : (⟨2, ![N, 1]⟩ : Shape).BroadcastsInDim ⟨2, ![N, D]⟩ ![0, 1])
    (p : Fin N) (q : Fin D) : broadcastInDim ⟨2, ![N, D]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if N = 1 then 0 else p.val
    split
    · have := p.isLt; omega
    · rfl
  | ⟨1, _⟩ => rfl

/-- A row broadcast in dimensions [0, 1]: entry (p, q) is the row's entry (0, q). -/
theorem broadcastInDim_row_apply {α : Type} (v : (⟨2, ![1, D]⟩ : Shape).Idx → α) (h : (⟨2, ![1, D]⟩ : Shape).BroadcastsInDim ⟨2, ![N, D]⟩ ![0, 1])
    (p : Fin N) (q : Fin D) : broadcastInDim ⟨2, ![N, D]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if D = 1 then 0 else q.val
    split
    · have := q.isLt; omega
    · rfl

theorem mulf_broadcastInDim_col (a : Mat N D) (s : Mat N 1) (h : (⟨2, ![N, 1]⟩ : Shape).BroadcastsInDim ⟨2, ![N, D]⟩ ![0, 1]) :
    mulf a (broadcastInDim ⟨2, ![N, D]⟩ ![0, 1] h s) = rowScale a s := by
  funext i
  obtain ⟨p, q, rfl⟩ : ∃ (p : Fin N) (q : Fin D), i = ix2 p q := ⟨i 0, i 1, eq_ix2 i⟩
  rw [mulf_apply, broadcastInDim_col_apply, rowScale_apply]

theorem addf_broadcastInDim_row (z : Mat N D) (b : Mat 1 D) (h : (⟨2, ![1, D]⟩ : Shape).BroadcastsInDim ⟨2, ![N, D]⟩ ![0, 1]) :
    addf z (broadcastInDim ⟨2, ![N, D]⟩ ![0, 1] h b) = rowBias z b := by
  funext i
  obtain ⟨p, q, rfl⟩ : ∃ (p : Fin N) (q : Fin D), i = ix2 p q := ⟨i 0, i 1, eq_ix2 i⟩
  rw [addf_apply, broadcastInDim_row_apply, rowBias_apply]

theorem maximumf_broadcastInDim_zero (z : Mat N D) (h : (⟨0, ![]⟩ : Shape).BroadcastsInDim ⟨2, ![N, D]⟩ ![]) :
    maximumf z (broadcastInDim ⟨2, ![N, D]⟩ ![] h (constant (F := Ideal) ⟨0, ![]⟩ .f32 0x00000000#32)) = relu z := by
  funext i
  rw [maximumf_apply, broadcastInDim_apply ![] h _ i ix0 (fun a => a.elim0)]
  rfl

/-- The host's contraction of an [N, D] by a [D, E] array is the matrix product. -/
theorem dotGeneral_plain (h : Mat N D) (w : Mat D E) (prec : Option ContractPrecision) :
    Host.dotGeneral (DotDims.plain N D E) prec h w = product h w := by
  funext i
  obtain ⟨p, q, rfl⟩ : ∃ (p : Fin N) (q : Fin E), i = ix2 p q := ⟨i 0, i 1, eq_ix2 i⟩
  simp only [Host.dotGeneral]
  rw [Ideal.dotGeneral_apply, ← Equiv.sum_comp (contrEquiv1 (DotDims.plain N D E) D rfl rfl).symm, product_apply]
  refine Finset.sum_congr rfl fun k _ => ?_
  have hk := contrEquiv1_symm_val (DotDims.plain N D E) D rfl rfl k
  have el : (DotDims.plain N D E).lhsIdx (ix2 p q) ((contrEquiv1 (DotDims.plain N D E) D rfl rfl).symm k) = ix2 p k :=
    funext fun a => Fin.ext (by
      match a with
      | ⟨0, _⟩ => exact MatmulPlain.lhs_row _ _
      | ⟨1, _⟩ => exact (MatmulPlain.lhs_col _ _).trans hk)
  have er : (DotDims.plain N D E).rhsIdx (ix2 p q) ((contrEquiv1 (DotDims.plain N D E) D rfl rfl).symm k) = ix2 k q :=
    funext fun a => Fin.ext (by
      match a with
      | ⟨0, _⟩ => exact (MatmulPlain.rhs_row _ _).trans hk
      | ⟨1, _⟩ => exact MatmulPlain.rhs_col _ _)
  rw [el, er]

end Idealize.ShloMosaic.GraphLayer
end
-- ==== Proof.KernelLayer0.lean ====
/-
  Region 0 of the kernel program: the first layer's dense transform. Whatever the buffers hold when the region is
  entered (`V`), its output array ends as the product of the row-scaled node features with the weights: grid point t
  computes rows 2000·t … 2000·t + 1999 from the same rows of the features and of the scaling column and from all of the
  weights, and the 25 blocks of rows cover the 50000 rows.
-/
import proofs.«162830_j76012331205027_1_alg».proof.Proof.Gen.KernelIdeal.Frame
import proofs.«162830_j76012331205027_1_alg».proof.Proof.LibGraphLayer
import Idealize.ShloMosaic.Lib.Pipeline.Value

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.GraphLayer

variable (V : (c : Dev nD) → (b : Ref sig .tc) → Buf (Elt Ideal) ((c : Thread nD τ).loc b))

theorem hz : (![0, 0] : Fin 2 → Nat) = fun _ => 0 := funext fun a => by fin_cases a <;> rfl

/-- The body's result on a block of rows: the product of the scaled rows with the weights. -/
theorem payload_eq (x0 : Mat 2000 256) (x1 : Mat 2000 1) (w : Mat 256 256) :
    k0_pay1 (F := Ideal) x0 x1 w = product (rowScale x0 x1) w := by
  unfold k0_pay1
  rw [show dot_S2000x256_S256x256_S2000x256_1_0_0_1_n_n = DotDims.plain 2000 256 256 from rfl]
  simp only [shapeCast_self, mulf_broadcastTo_col, matmul_truncf_zero]

/-- The printed index maps over the 25 grid points: the row-blocked windows sit at block row t, block column 0; the
    weights' window at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 25 :=
  (by decide +kernel : ∀ t : Fin grid0.N, _)

/-- Row p of grid point t's block is row 2000·t + p of the array. -/
def row (t : Fin cfg0.N) (p : Fin 2000) : Fin 50000 := ⟨2000 * t.val + p.val, by have := (idx_facts t).2.2.2.2.2.2.2.2; omega⟩

/-- A row-blocked window's block at point t, read off its array, is the array's rows 2000·t …: the features. -/
theorem block0 (c : Dev nD) (t : Fin cfg0.N) : iblk0 V c 0 t = rows (row t) (V c main_arg0) := by
  obtain ⟨e0, e1, -⟩ := idx_facts t
  funext y
  show V c main_arg0 (((cfg0.win 0).blk t).view.emb y) = V c main_arg0 (ix2 (row t (y 0)) (y 1))
  refine congrArg _ (funext fun a => Fin.ext ?_)
  match a with
  | ⟨0, _⟩ => show win0_0.index t (0 : Fin 2) * 2000 + 1 * (y 0).val = 2000 * t.val + (y 0).val; omega
  | ⟨1, _⟩ => show win0_0.index t (1 : Fin 2) * 256 + 1 * (y 1).val = (y 1).val; omega

/-- The scaling column's block at point t is its rows 2000·t …. -/
theorem block1 (c : Dev nD) (t : Fin cfg0.N) : iblk0 V c 1 t = rows (row t) (V c main_v14) := by
  obtain ⟨-, -, e0, e1, -⟩ := idx_facts t
  funext y
  show V c main_v14 (((cfg0.win 1).blk t).view.emb y) = V c main_v14 (ix2 (row t (y 0)) (y 1))
  refine congrArg _ (funext fun a => Fin.ext ?_)
  match a with
  | ⟨0, _⟩ => show win0_1.index t (0 : Fin 2) * 2000 + 1 * (y 0).val = 2000 * t.val + (y 0).val; omega
  | ⟨1, _⟩ => show win0_1.index t (1 : Fin 2) * 1 + 1 * (y 1).val = (y 1).val; omega

/-- The weights' block at every point is the whole array. -/
theorem block2 (c : Dev nD) (t : Fin cfg0.N) : iblk0 V c 2 t = V c main_arg2 := by
  obtain ⟨-, -, -, -, e0, e1, -⟩ := idx_facts t
  funext y
  show V c main_arg2 (((cfg0.win 2).blk t).view.emb y) = V c main_arg2 y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- The output window's block at point t of any array is that array's rows 2000·t …. -/
theorem blockOut (t : Fin cfg0.N) (A : Mat 50000 256) : ((cfg0.win 3).blk t).view.read (Elt Ideal) A = rows (row t) A := by
  obtain ⟨-, -, -, -, -, -, e0, e1, -⟩ := idx_facts t
  funext y
  show A (((cfg0.win 3).blk t).view.emb y) = A (ix2 (row t (y 0)) (y 1))
  refine congrArg _ (funext fun a => Fin.ext ?_)
  match a with
  | ⟨0, _⟩ => show win0_3.index t (0 : Fin 2) * 2000 + 1 * (y 0).val = 2000 * t.val + (y 0).val; omega
  | ⟨1, _⟩ => show win0_3.index t (1 : Fin 2) * 256 + 1 * (y 1).val = (y 1).val; omega

/-- What point t writes back is rows 2000·t … of the layer function of the entry arrays. -/
theorem flushed_eq (c : Dev nD) (t : Fin cfg0.N) :
    (dat0 V c).flushed 3 t = ((cfg0.win 3).blk t).view.read (Elt Ideal)
      (product (rowScale (V c main_arg0) (V c main_v14)) (V c main_arg2)) := by
  show (cfg0.win 3).cut (grid0.coords t) ((dat0 V c).after 3 t) = _
  rw [after0_3]
  unfold out0_3
  rw [View.canon_unit_zero hz]
  simp only [View.ld_unit_zero (S := S2000x256) hz, View.ld_unit_zero (S := S2000x1) hz, View.ld_unit_zero (S := S256x256) hz]
  rw [blockOut, rows_product, rows_rowScale, ← block0 V c t, ← block1 V c t, ← block2 V c t]
  exact payload_eq _ _ _

/-- An index of the array is in point t's block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v17).slice (win0_3.rect t)).set ↔ _
  rw [View.set_slice_whole, Rect.mem_set_unit]
  exact Iff.rfl

/-- Every index of the output array is in some point's block: the one of its row's quotient by 2000. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  let t : Fin cfg0.N := ⟨(i 0).val / 2000, by show (i 0).val / 2000 < 25; omega⟩
  obtain ⟨-, -, -, -, -, -, e0, e1, -⟩ := idx_facts t
  have ht : t.val = (i 0).val / 2000 := rfl
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- THE REGION'S VALUE: its output array ends as the product of the row-scaled features with the weights. -/
theorem value (c : Dev nD) :
    (dat0 V c).arrAt 3 cfg0.N = product (rowScale (V c main_arg0) (V c main_v14)) (V c main_arg2) :=
  (dat0 V c).arrAt_eq_of_cover 3 _ (fun t _ => flushed_eq V c t) cover

end Cert.KernelIdeal.Layer0

end
-- ==== Proof.KernelLayer1.lean ====
/- Region 1 of the kernel program: the end of one graph-convolution layer fused with the dense transform of the next.
  Whatever the buffers hold when the region is entered (`V`), its output array ends as
  ((relu (agg ⊙ din + b)) ⊙ dout) · W: the aggregated messages scaled row by row by the in-degree column, the bias row
  added, the positive part taken, scaled row by row by the out-degree column, and multiplied by the next layer's weights.
  Grid point t computes rows 2000·t … 2000·t + 1999 from the same rows of the row-indexed operands, and the 25 blocks
  cover the 50000 rows.
-/
import proofs.«162830_j76012331205027_1_alg».proof.Proof.Gen.KernelIdeal.Frame
import proofs.«162830_j76012331205027_1_alg».proof.Proof.LibGraphLayer
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.GraphLayer

variable (V : (c : Dev nD) → (b : Ref sig .tc) → Buf (Elt Ideal) ((c : Thread nD τ).loc b))

theorem hz : (![0, 0] : Fin 2 → Nat) = fun _ => 0 := funext fun a => by fin_cases a <;> rfl

/-- The body's result on a block of rows. -/
theorem payload_eq (x0 : Mat 2000 256) (x1 : Mat 2000 1) (x2 : Mat 1 256) (x3 : Mat 2000 1) (w : Mat 256 256) :
    k1_pay1 (F := Ideal) x0 x1 x2 x3 w = product (rowScale (relu (rowBias (rowScale x0 x1) x2)) x3) w := by
  unfold k1_pay1
  rw [show dot_S2000x256_S256x256_S2000x256_1_0_0_1_n_n = DotDims.plain 2000 256 256 from rfl]
  simp only [shapeCast_self, mulf_broadcastTo_col, addf_broadcastTo_row, maximumf_broadcast_zero, matmul_truncf_zero]

/-- The grid has 25 points. -/
theorem lt25 : ∀ t : Fin cfg1.N, t.val < 25 := (by decide +kernel : ∀ t : Fin grid1.N, t.val < 25)

/-- Row p of grid point t's block is row 2000·t + p of the array. -/
def row (t : Fin cfg1.N) (p : Fin 2000) : Fin 50000 := ⟨2000 * t.val + p.val, by have := lt25 t; omega⟩

/-- Window 0's printed index map over the grid: block row t, block column 0. -/
theorem idx0 : ∀ t : Fin cfg1.N, win1_0.index t (0 : Fin 2) = t.val ∧ win1_0.index t (1 : Fin 2) = 0 :=
  (by decide +kernel : ∀ t : Fin grid1.N, _)

/-- Window 1's printed index map over the grid: block row t, block column 0. -/
theorem idx1 : ∀ t : Fin cfg1.N, win1_1.index t (0 : Fin 2) = t.val ∧ win1_1.index t (1 : Fin 2) = 0 :=
  (by decide +kernel : ∀ t : Fin grid1.N, _)

/-- Window 2's printed index map over the grid: block row 0, block column 0. -/
theorem idx2 : ∀ t : Fin cfg1.N, win1_2.index t (0 : Fin 2) = 0 ∧ win1_2.index t (1 : Fin 2) = 0 :=
  (by decide +kernel : ∀ t : Fin grid1.N, _)

/-- Window 3's printed index map over the grid: block row t, block column 0. -/
theorem idx3 : ∀ t : Fin cfg1.N, win1_3.index t (0 : Fin 2) = t.val ∧ win1_3.index t (1 : Fin 2) = 0 :=
  (by decide +kernel : ∀ t : Fin grid1.N, _)

/-- Window 4's printed index map over the grid: block row 0, block column 0. -/
theorem idx4 : ∀ t : Fin cfg1.N, win1_4.index t (0 : Fin 2) = 0 ∧ win1_4.index t (1 : Fin 2) = 0 :=
  (by decide +kernel : ∀ t : Fin grid1.N, _)

/-- Window 5's printed index map over the grid: block row t, block column 0. -/
theorem idx5 : ∀ t : Fin cfg1.N, win1_5.index t (0 : Fin 2) = t.val ∧ win1_5.index t (1 : Fin 2) = 0 :=
  (by decide +kernel : ∀ t : Fin grid1.N, _)

/-- Window 0's block at point t, read off its array, is the array's rows 2000·t … 2000·t + 1999. -/
theorem block0 (c : Dev nD) (t : Fin cfg1.N) : iblk1 V c 0 t = rows (row t) (V c main_v27) := by
  obtain ⟨e0, e1⟩ := idx0 t
  funext y
  show V c main_v27 (((cfg1.win 0).blk t).view.emb y) = V c main_v27 (ix2 (row t (y 0)) (y 1))
  refine congrArg _ (funext fun a => Fin.ext ?_)
  match a with
  | ⟨0, _⟩ => show win1_0.index t (0 : Fin 2) * 2000 + 1 * (y 0).val = 2000 * t.val + (y 0).val; omega
  | ⟨1, _⟩ => show win1_0.index t (1 : Fin 2) * 256 + 1 * (y 1).val = (y 1).val; omega

/-- Window 1's block at point t, read off its array, is the array's rows 2000·t … 2000·t + 1999. -/
theorem block1 (c : Dev nD) (t : Fin cfg1.N) : iblk1 V c 1 t = rows (row t) (V c main_v16) := by
  obtain ⟨e0, e1⟩ := idx1 t
  funext y
  show V c main_v16 (((cfg1.win 1).blk t).view.emb y) = V c main_v16 (ix2 (row t (y 0)) (y 1))
  refine congrArg _ (funext fun a => Fin.ext ?_)
  match a with
  | ⟨0, _⟩ => show win1_1.index t (0 : Fin 2) * 2000 + 1 * (y 0).val = 2000 * t.val + (y 0).val; omega
  | ⟨1, _⟩ => show win1_1.index t (1 : Fin 2) * 1 + 1 * (y 1).val = (y 1).val; omega

/-- Window 2's block at every point is its whole array. -/
theorem block2 (c : Dev nD) (t : Fin cfg1.N) : iblk1 V c 2 t = V c main_v28 := by
  obtain ⟨e0, e1⟩ := idx2 t
  funext y
  show V c main_v28 (((cfg1.win 2).blk t).view.emb y) = V c main_v28 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- Window 3's block at point t, read off its array, is the array's rows 2000·t … 2000·t + 1999. -/
theorem block3 (c : Dev nD) (t : Fin cfg1.N) : iblk1 V c 3 t = rows (row t) (V c main_v14) := by
  obtain ⟨e0, e1⟩ := idx3 t
  funext y
  show V c main_v14 (((cfg1.win 3).blk t).view.emb y) = V c main_v14 (ix2 (row t (y 0)) (y 1))
  refine congrArg _ (funext fun a => Fin.ext ?_)
  match a with
  | ⟨0, _⟩ => show win1_3.index t (0 : Fin 2) * 2000 + 1 * (y 0).val = 2000 * t.val + (y 0).val; omega
  | ⟨1, _⟩ => show win1_3.index t (1 : Fin 2) * 1 + 1 * (y 1).val = (y 1).val; omega

/-- Window 4's block at every point is its whole array. -/
theorem block4 (c : Dev nD) (t : Fin cfg1.N) : iblk1 V c 4 t = V c main_arg4 := by
  obtain ⟨e0, e1⟩ := idx4 t
  funext y
  show V c main_arg4 (((cfg1.win 4).blk t).view.emb y) = V c main_arg4 y
  refine congrArg _ (funext fun a => Fin.ext ?_)
  match a with
  | ⟨0, _⟩ => show win1_4.index t (0 : Fin 2) * 256 + 1 * (y 0).val = (y 0).val; omega
  | ⟨1, _⟩ => show win1_4.index t (1 : Fin 2) * 256 + 1 * (y 1).val = (y 1).val; omega

/-- Output window 5's block at point t of any array is that array's rows 2000·t … 2000·t + 1999. -/
theorem blockOut5 (t : Fin cfg1.N) (A : Mat 50000 256) : ((cfg1.win 5).blk t).view.read (Elt Ideal) A = rows (row t) A := by
  obtain ⟨e0, e1⟩ := idx5 t
  funext y
  show A (((cfg1.win 5).blk t).view.emb y) = A (ix2 (row t (y 0)) (y 1))
  refine congrArg _ (funext fun a => Fin.ext ?_)
  match a with
  | ⟨0, _⟩ => show win1_5.index t (0 : Fin 2) * 2000 + 1 * (y 0).val = 2000 * t.val + (y 0).val; omega
  | ⟨1, _⟩ => show win1_5.index t (1 : Fin 2) * 256 + 1 * (y 1).val = (y 1).val; omega

/-- What point t writes back to output window 5 is rows 2000·t … of the layer function of the entry arrays: every
    operation of the layer acts row by row, so the rows of the result are the result on the rows. -/
theorem flushed_eq5 (c : Dev nD) (t : Fin cfg1.N) :
    (dat1 V c).flushed 5 t = ((cfg1.win 5).blk t).view.read (Elt Ideal)
      (product (rowScale (relu (rowBias (rowScale (V c main_v27) (V c main_v16)) (V c main_v28))) (V c main_v14)) (V c main_arg4)) := by
  show (cfg1.win 5).cut (grid1.coords t) ((dat1 V c).after 5 t) = _
  rw [after1_5]
  unfold out1_5
  rw [View.canon_unit_zero hz]
  simp only [View.ld_unit_zero (S := S2000x256) hz, View.ld_unit_zero (S := S2000x1) hz, View.ld_unit_zero (S := S1x256) hz, View.ld_unit_zero (S := S256x256) hz]
  rw [blockOut5]
  simp only [rows_product, rows_rowScale, rows_rowBias, rows_relu]
  rw [← block0 V c t, ← block1 V c t, ← block2 V c t, ← block3 V c t, ← block4 V c t]
  exact payload_eq _ _ _ _ _

/-- An index of output window 5's array is in point t's block iff each coordinate is in the block's range. -/
theorem mem_blk5 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v29).slice (win1_5.rect t)).set ↔ _
  rw [View.set_slice_whole, Rect.mem_set_unit]
  exact Iff.rfl

/-- Every index of output window 5's array is in some point's block: the point of its row's quotient by 2000. -/
theorem cover5 (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  let t : Fin cfg1.N := ⟨(i 0).val / 2000, by show (i 0).val / 2000 < 25; omega⟩
  obtain ⟨e0, e1⟩ := idx5 t
  have ht : t.val = (i 0).val / 2000 := rfl
  refine ⟨t, flush1_5 t, ?_⟩
  rw [mem_blk5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- THE REGION'S VALUE: its output array ends as ((relu (agg ⊙ din + b)) ⊙ dout) · W of its entry arrays. -/
theorem value5 (c : Dev nD) :
    (dat1 V c).arrAt 5 cfg1.N = product (rowScale (relu (rowBias (rowScale (V c main_v27) (V c main_v16)) (V c main_v28))) (V c main_v14)) (V c main_arg4) :=
  (dat1 V c).arrAt_eq_of_cover 5 _ (fun t _ => flushed_eq5 V c t) cover5

end Cert.KernelIdeal.Layer1

end
-- ==== Proof.KernelLayer2.lean ====
/- Region 2 of the kernel program: the end of one graph-convolution layer fused with the dense transform of the next.
  Whatever the buffers hold when the region is entered (`V`), its output array ends as
  ((relu (agg ⊙ din + b)) ⊙ dout) · W: the aggregated messages scaled row by row by the in-degree column, the bias row
  added, the positive part taken, scaled row by row by the out-degree column, and multiplied by the next layer's weights.
  Grid point t computes rows 2000·t … 2000·t + 1999 from the same rows of the row-indexed operands, and the 25 blocks
  cover the 50000 rows.
-/
import proofs.«162830_j76012331205027_1_alg».proof.Proof.Gen.KernelIdeal.Frame
import proofs.«162830_j76012331205027_1_alg».proof.Proof.LibGraphLayer
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.GraphLayer

variable (V : (c : Dev nD) → (b : Ref sig .tc) → Buf (Elt Ideal) ((c : Thread nD τ).loc b))

theorem hz : (![0, 0] : Fin 2 → Nat) = fun _ => 0 := funext fun a => by fin_cases a <;> rfl

/-- The body's result on a block of rows. -/
theorem payload_eq (x0 : Mat 2000 256) (x1 : Mat 2000 1) (x2 : Mat 1 256) (x3 : Mat 2000 1) (w : Mat 256 128) :
    k2_pay1 (F := Ideal) x0 x1 x2 x3 w = product (rowScale (relu (rowBias (rowScale x0 x1) x2)) x3) w := by
  unfold k2_pay1
  rw [show dot_S2000x256_S256x128_S2000x128_1_0_0_1_n_n = DotDims.plain 2000 256 128 from rfl]
  simp only [shapeCast_self, mulf_broadcastTo_col, addf_broadcastTo_row, maximumf_broadcast_zero, matmul_truncf_zero]

/-- The grid has 25 points. -/
theorem lt25 : ∀ t : Fin cfg2.N, t.val < 25 := (by decide +kernel : ∀ t : Fin grid2.N, t.val < 25)

/-- Row p of grid point t's block is row 2000·t + p of the array. -/
def row (t : Fin cfg2.N) (p : Fin 2000) : Fin 50000 := ⟨2000 * t.val + p.val, by have := lt25 t; omega⟩

/-- Window 0's printed index map over the grid: block row t, block column 0. -/
theorem idx0 : ∀ t : Fin cfg2.N, win2_0.index t (0 : Fin 2) = t.val ∧ win2_0.index t (1 : Fin 2) = 0 :=
  (by decide +kernel : ∀ t : Fin grid2.N, _)

/-- Window 1's printed index map over the grid: block row t, block column 0. -/
theorem idx1 : ∀ t : Fin cfg2.N, win2_1.index t (0 : Fin 2) = t.val ∧ win2_1.index t (1 : Fin 2) = 0 :=
  (by decide +kernel : ∀ t : Fin grid2.N, _)

/-- Window 2's printed index map over the grid: block row 0, block column 0. -/
theorem idx2 : ∀ t : Fin cfg2.N, win2_2.index t (0 : Fin 2) = 0 ∧ win2_2.index t (1 : Fin 2) = 0 :=
  (by decide +kernel : ∀ t : Fin grid2.N, _)

/-- Window 3's printed index map over the grid: block row t, block column 0. -/
theorem idx3 : ∀ t : Fin cfg2.N, win2_3.index t (0 : Fin 2) = t.val ∧ win2_3.index t (1 : Fin 2) = 0 :=
  (by decide +kernel : ∀ t : Fin grid2.N, _)

/-- Window 4's printed index map over the grid: block row 0, block column 0. -/
theorem idx4 : ∀ t : Fin cfg2.N, win2_4.index t (0 : Fin 2) = 0 ∧ win2_4.index t (1 : Fin 2) = 0 :=
  (by decide +kernel : ∀ t : Fin grid2.N, _)

/-- Window 5's printed index map over the grid: block row t, block column 0. -/
theorem idx5 : ∀ t : Fin cfg2.N, win2_5.index t (0 : Fin 2) = t.val ∧ win2_5.index t (1 : Fin 2) = 0 :=
  (by decide +kernel : ∀ t : Fin grid2.N, _)

/-- Window 0's block at point t, read off its array, is the array's rows 2000·t … 2000·t + 1999. -/
theorem block0 (c : Dev nD) (t : Fin cfg2.N) : iblk2 V c 0 t = rows (row t) (V c main_v39) := by
  obtain ⟨e0, e1⟩ := idx0 t
  funext y
  show V c main_v39 (((cfg2.win 0).blk t).view.emb y) = V c main_v39 (ix2 (row t (y 0)) (y 1))
  refine congrArg _ (funext fun a => Fin.ext ?_)
  match a with
  | ⟨0, _⟩ => show win2_0.index t (0 : Fin 2) * 2000 + 1 * (y 0).val = 2000 * t.val + (y 0).val; omega
  | ⟨1, _⟩ => show win2_0.index t (1 : Fin 2) * 256 + 1 * (y 1).val = (y 1).val; omega

/-- Window 1's block at point t, read off its array, is the array's rows 2000·t … 2000·t + 1999. -/
theorem block1 (c : Dev nD) (t : Fin cfg2.N) : iblk2 V c 1 t = rows (row t) (V c main_v16) := by
  obtain ⟨e0, e1⟩ := idx1 t
  funext y
  show V c main_v16 (((cfg2.win 1).blk t).view.emb y) = V c main_v16 (ix2 (row t (y 0)) (y 1))
  refine congrArg _ (funext fun a => Fin.ext ?_)
  match a with
  | ⟨0, _⟩ => show win2_1.index t (0 : Fin 2) * 2000 + 1 * (y 0).val = 2000 * t.val + (y 0).val; omega
  | ⟨1, _⟩ => show win2_1.index t (1 : Fin 2) * 1 + 1 * (y 1).val = (y 1).val; omega

/-- Window 2's block at every point is its whole array. -/
theorem block2 (c : Dev nD) (t : Fin cfg2.N) : iblk2 V c 2 t = V c main_v40 := by
  obtain ⟨e0, e1⟩ := idx2 t
  funext y
  show V c main_v40 (((cfg2.win 2).blk t).view.emb y) = V c main_v40 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 256 + 1 * (y 1).val = (y 1).val; omega

/-- Window 3's block at point t, read off its array, is the array's rows 2000·t … 2000·t + 1999. -/
theorem block3 (c : Dev nD) (t : Fin cfg2.N) : iblk2 V c 3 t = rows (row t) (V c main_v14) := by
  obtain ⟨e0, e1⟩ := idx3 t
  funext y
  show V c main_v14 (((cfg2.win 3).blk t).view.emb y) = V c main_v14 (ix2 (row t (y 0)) (y 1))
  refine congrArg _ (funext fun a => Fin.ext ?_)
  match a with
  | ⟨0, _⟩ => show win2_3.index t (0 : Fin 2) * 2000 + 1 * (y 0).val = 2000 * t.val + (y 0).val; omega
  | ⟨1, _⟩ => show win2_3.index t (1 : Fin 2) * 1 + 1 * (y 1).val = (y 1).val; omega

/-- Window 4's block at every point is its whole array. -/
theorem block4 (c : Dev nD) (t : Fin cfg2.N) : iblk2 V c 4 t = V c main_arg6 := by
  obtain ⟨e0, e1⟩ := idx4 t
  funext y
  show V c main_arg6 (((cfg2.win 4).blk t).view.emb y) = V c main_arg6 y
  refine congrArg _ (funext fun a => Fin.ext ?_)
  match a with
  | ⟨0, _⟩ => show win2_4.index t (0 : Fin 2) * 256 + 1 * (y 0).val = (y 0).val; omega
  | ⟨1, _⟩ => show win2_4.index t (1 : Fin 2) * 128 + 1 * (y 1).val = (y 1).val; omega

/-- Output window 5's block at point t of any array is that array's rows 2000·t … 2000·t + 1999. -/
theorem blockOut5 (t : Fin cfg2.N) (A : Mat 50000 128) : ((cfg2.win 5).blk t).view.read (Elt Ideal) A = rows (row t) A := by
  obtain ⟨e0, e1⟩ := idx5 t
  funext y
  show A (((cfg2.win 5).blk t).view.emb y) = A (ix2 (row t (y 0)) (y 1))
  refine congrArg _ (funext fun a => Fin.ext ?_)
  match a with
  | ⟨0, _⟩ => show win2_5.index t (0 : Fin 2) * 2000 + 1 * (y 0).val = 2000 * t.val + (y 0).val; omega
  | ⟨1, _⟩ => show win2_5.index t (1 : Fin 2) * 128 + 1 * (y 1).val = (y 1).val; omega

/-- What point t writes back to output window 5 is rows 2000·t … of the layer function of the entry arrays: every
    operation of the layer acts row by row, so the rows of the result are the result on the rows. -/
theorem flushed_eq5 (c : Dev nD) (t : Fin cfg2.N) :
    (dat2 V c).flushed 5 t = ((cfg2.win 5).blk t).view.read (Elt Ideal)
      (product (rowScale (relu (rowBias (rowScale (V c main_v39) (V c main_v16)) (V c main_v40))) (V c main_v14)) (V c main_arg6)) := by
  show (cfg2.win 5).cut (grid2.coords t) ((dat2 V c).after 5 t) = _
  rw [after2_5]
  unfold out2_5
  rw [View.canon_unit_zero hz]
  simp only [View.ld_unit_zero (S := S2000x256) hz, View.ld_unit_zero (S := S2000x1) hz, View.ld_unit_zero (S := S1x256) hz, View.ld_unit_zero (S := S256x128) hz]
  rw [blockOut5]
  simp only [rows_product, rows_rowScale, rows_rowBias, rows_relu]
  rw [← block0 V c t, ← block1 V c t, ← block2 V c t, ← block3 V c t, ← block4 V c t]
  exact payload_eq _ _ _ _ _

/-- An index of output window 5's array is in point t's block iff each coordinate is in the block's range. -/
theorem mem_blk5 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v41).slice (win2_5.rect t)).set ↔ _
  rw [View.set_slice_whole, Rect.mem_set_unit]
  exact Iff.rfl

/-- Every index of output window 5's array is in some point's block: the point of its row's quotient by 2000. -/
theorem cover5 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  let t : Fin cfg2.N := ⟨(i 0).val / 2000, by show (i 0).val / 2000 < 25; omega⟩
  obtain ⟨e0, e1⟩ := idx5 t
  have ht : t.val = (i 0).val / 2000 := rfl
  refine ⟨t, flush2_5 t, ?_⟩
  rw [mem_blk5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- THE REGION'S VALUE: its output array ends as ((relu (agg ⊙ din + b)) ⊙ dout) · W of its entry arrays. -/
theorem value5 (c : Dev nD) :
    (dat2 V c).arrAt 5 cfg2.N = product (rowScale (relu (rowBias (rowScale (V c main_v39) (V c main_v16)) (V c main_v40))) (V c main_v14)) (V c main_arg6) :=
  (dat2 V c).arrAt_eq_of_cover 5 _ (fun t _ => flushed_eq5 V c t) cover5

end Cert.KernelIdeal.Layer2

end
-- ==== Proof.KernelLayer3.lean ====
/- Region 3 of the kernel program: the end of the last graph-convolution layer and the two-layer head.
  Whatever the buffers hold when the region is entered (`V`), its first output array ends as
  h = relu (agg ⊙ din + b), and its second as relu (h · M₁ + c₁) · M₂ + c₂. Grid point t computes rows
  2000·t … 2000·t + 1999 of both from the same rows of the aggregated messages and of the in-degree column, and the
  25 blocks cover the 50000 rows.
-/
import proofs.«162830_j76012331205027_1_alg».proof.Proof.Gen.KernelIdeal.Frame
import proofs.«162830_j76012331205027_1_alg».proof.Proof.LibGraphLayer
import Idealize.ShloMosaic.Lib.Pipeline.Value

set_option maxRecDepth 16384

noncomputable section

namespace Cert.KernelIdeal.Layer3

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.GraphLayer

variable (V : (c : Dev nD) → (b : Ref sig .tc) → Buf (Elt Ideal) ((c : Thread nD τ).loc b))

theorem hz : (![0, 0] : Fin 2 → Nat) = fun _ => 0 := funext fun a => by fin_cases a <;> rfl

/-- The body's first result on a block of rows: the layer's activation. -/
theorem payload1_eq (x0 : Mat 2000 128) (x1 : Mat 2000 1) (x2 : Mat 1 128) :
    k3_pay1 (F := Ideal) x0 x1 x2 = relu (rowBias (rowScale x0 x1) x2) := by
  unfold k3_pay1
  simp only [shapeCast_self, mulf_broadcastTo_col, addf_broadcastTo_row, maximumf_broadcast_zero]

/-- The body's second result on a block of rows: the head applied to the activation. -/
theorem payload2_eq (x0 : Mat 2000 128) (x1 : Mat 2000 1) (x2 : Mat 1 128) (x3 : Mat 128 64) (x4 : Mat 1 64) (x5 : Mat 64 64) (x6 : Mat 1 64) :
    k3_pay2 (F := Ideal) x0 x1 x2 x3 x4 x5 x6
      = rowBias (product (relu (rowBias (product (relu (rowBias (rowScale x0 x1) x2)) x3) x4)) x5) x6 := by
  unfold k3_pay2
  rw [payload1_eq, show dot_S2000x128_S128x64_S2000x64_1_0_0_1_n_n = DotDims.plain 2000 128 64 from rfl,
    show dot_S2000x64_S64x64_S2000x64_1_0_0_1_n_n = DotDims.plain 2000 64 64 from rfl]
  simp only [shapeCast_self, addf_broadcastTo_row, maximumf_broadcast_zero, matmul_truncf_zero]

/-- The grid has 25 points. -/
theorem lt25 : ∀ t : Fin cfg3.N, t.val < 25 := (by decide +kernel : ∀ t : Fin grid3.N, t.val < 25)

/-- Row p of grid point t's block is row 2000·t + p of the array. -/
def row (t : Fin cfg3.N) (p : Fin 2000) : Fin 50000 := ⟨2000 * t.val + p.val, by have := lt25 t; omega⟩

/-- Window 0's printed index map over the grid: block row t, block column 0. -/
theorem idx0 : ∀ t : Fin cfg3.N, win3_0.index t (0 : Fin 2) = t.val ∧ win3_0.index t (1 : Fin 2) = 0 :=
  (by decide +kernel : ∀ t : Fin grid3.N, _)

/-- Window 1's printed index map over the grid: block row t, block column 0. -/
theorem idx1 : ∀ t : Fin cfg3.N, win3_1.index t (0 : Fin 2) = t.val ∧ win3_1.index t (1 : Fin 2) = 0 :=
  (by decide +kernel : ∀ t : Fin grid3.N, _)

/-- Window 2's printed index map over the grid: block row 0, block column 0. -/
theorem idx2 : ∀ t : Fin cfg3.N, win3_2.index t (0 : Fin 2) = 0 ∧ win3_2.index t (1 : Fin 2) = 0 :=
  (by decide +kernel : ∀ t : Fin grid3.N, _)

/-- Window 3's printed index map over the grid: block row 0, block column 0. -/
theorem idx3 : ∀ t : Fin cfg3.N, win3_3.index t (0 : Fin 2) = 0 ∧ win3_3.index t (1 : Fin 2) = 0 :=
  (by decide +kernel : ∀ t : Fin grid3.N, _)

/-- Window 4's printed index map over the grid: block row 0, block column 0. -/
theorem idx4 : ∀ t : Fin cfg3.N, win3_4.index t (0 : Fin 2) = 0 ∧ win3_4.index t (1 : Fin 2) = 0 :=
  (by decide +kernel : ∀ t : Fin grid3.N, _)

/-- Window 5's printed index map over the grid: block row 0, block column 0. -/
theorem idx5 : ∀ t : Fin cfg3.N, win3_5.index t (0 : Fin 2) = 0 ∧ win3_5.index t (1 : Fin 2) = 0 :=
  (by decide +kernel : ∀ t : Fin grid3.N, _)

/-- Window 6's printed index map over the grid: block row 0, block column 0. -/
theorem idx6 : ∀ t : Fin cfg3.N, win3_6.index t (0 : Fin 2) = 0 ∧ win3_6.index t (1 : Fin 2) = 0 :=
  (by decide +kernel : ∀ t : Fin grid3.N, _)

/-- Window 7's printed index map over the grid: block row t, block column 0. -/
theorem idx7 : ∀ t : Fin cfg3.N, win3_7.index t (0 : Fin 2) = t.val ∧ win3_7.index t (1 : Fin 2) = 0 :=
  (by decide +kernel : ∀ t : Fin grid3.N, _)

/-- Window 8's printed index map over the grid: block row t, block column 0. -/
theorem idx8 : ∀ t : Fin cfg3.N, win3_8.index t (0 : Fin 2) = t.val ∧ win3_8.index t (1 : Fin 2) = 0 :=
  (by decide +kernel : ∀ t : Fin grid3.N, _)

/-- Window 0's block at point t, read off its array, is the array's rows 2000·t … 2000·t + 1999. -/
theorem block0 (c : Dev nD) (t : Fin cfg3.N) : iblk3 V c 0 t = rows (row t) (V c main_v51) := by
  obtain ⟨e0, e1⟩ := idx0 t
  funext y
  show V c main_v51 (((cfg3.win 0).blk t).view.emb y) = V c main_v51 (ix2 (row t (y 0)) (y 1))
  refine congrArg _ (funext fun a => Fin.ext ?_)
  match a with
  | ⟨0, _⟩ => show win3_0.index t (0 : Fin 2) * 2000 + 1 * (y 0).val = 2000 * t.val + (y 0).val; omega
  | ⟨1, _⟩ => show win3_0.index t (1 : Fin 2) * 128 + 1 * (y 1).val = (y 1).val; omega

/-- Window 1's block at point t, read off its array, is the array's rows 2000·t … 2000·t + 1999. -/
theorem block1 (c : Dev nD) (t : Fin cfg3.N) : iblk3 V c 1 t = rows (row t) (V c main_v16) := by
  obtain ⟨e0, e1⟩ := idx1 t
  funext y
  show V c main_v16 (((cfg3.win 1).blk t).view.emb y) = V c main_v16 (ix2 (row t (y 0)) (y 1))
  refine congrArg _ (funext fun a => Fin.ext ?_)
  match a with
  | ⟨0, _⟩ => show win3_1.index t (0 : Fin 2) * 2000 + 1 * (y 0).val = 2000 * t.val + (y 0).val; omega
  | ⟨1, _⟩ => show win3_1.index t (1 : Fin 2) * 1 + 1 * (y 1).val = (y 1).val; omega

/-- Window 2's block at every point is its whole array. -/
theorem block2 (c : Dev nD) (t : Fin cfg3.N) : iblk3 V c 2 t = V c main_v52 := by
  obtain ⟨e0, e1⟩ := idx2 t
  funext y
  show V c main_v52 (((cfg3.win 2).blk t).view.emb y) = V c main_v52 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- Window 3's block at every point is its whole array. -/
theorem block3 (c : Dev nD) (t : Fin cfg3.N) : iblk3 V c 3 t = V c main_arg8 := by
  obtain ⟨e0, e1⟩ := idx3 t
  funext y
  show V c main_arg8 (((cfg3.win 3).blk t).view.emb y) = V c main_arg8 y
  refine congrArg _ (funext fun a => Fin.ext ?_)
  match a with
  | ⟨0, _⟩ => show win3_3.index t (0 : Fin 2) * 128 + 1 * (y 0).val = (y 0).val; omega
  | ⟨1, _⟩ => show win3_3.index t (1 : Fin 2) * 64 + 1 * (y 1).val = (y 1).val; omega

/-- Window 4's block at every point is its whole array. -/
theorem block4 (c : Dev nD) (t : Fin cfg3.N) : iblk3 V c 4 t = V c main_v53 := by
  obtain ⟨e0, e1⟩ := idx4 t
  funext y
  show V c main_v53 (((cfg3.win 4).blk t).view.emb y) = V c main_v53 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- Window 5's block at every point is its whole array. -/
theorem block5 (c : Dev nD) (t : Fin cfg3.N) : iblk3 V c 5 t = V c main_arg10 := by
  obtain ⟨e0, e1⟩ := idx5 t
  funext y
  show V c main_arg10 (((cfg3.win 5).blk t).view.emb y) = V c main_arg10 y
  refine congrArg _ (funext fun a => Fin.ext ?_)
  match a with
  | ⟨0, _⟩ => show win3_5.index t (0 : Fin 2) * 64 + 1 * (y 0).val = (y 0).val; omega
  | ⟨1, _⟩ => show win3_5.index t (1 : Fin 2) * 64 + 1 * (y 1).val = (y 1).val; omega

/-- Window 6's block at every point is its whole array. -/
theorem block6 (c : Dev nD) (t : Fin cfg3.N) : iblk3 V c 6 t = V c main_v54 := by
  obtain ⟨e0, e1⟩ := idx6 t
  funext y
  show V c main_v54 (((cfg3.win 6).blk t).view.emb y) = V c main_v54 y
  refine congrArg _ (funext fun a => Fin.ext ?_)
  match a with
  | ⟨0, _⟩ => show win3_6.index t (0 : Fin 2) * 1 + 1 * (y 0).val = (y 0).val; omega
  | ⟨1, _⟩ => show win3_6.index t (1 : Fin 2) * 64 + 1 * (y 1).val = (y 1).val; omega

/-- Output window 7's block at point t of any array is that array's rows 2000·t … 2000·t + 1999. -/
theorem blockOut7 (t : Fin cfg3.N) (A : Mat 50000 128) : ((cfg3.win 7).blk t).view.read (Elt Ideal) A = rows (row t) A := by
  obtain ⟨e0, e1⟩ := idx7 t
  funext y
  show A (((cfg3.win 7).blk t).view.emb y) = A (ix2 (row t (y 0)) (y 1))
  refine congrArg _ (funext fun a => Fin.ext ?_)
  match a with
  | ⟨0, _⟩ => show win3_7.index t (0 : Fin 2) * 2000 + 1 * (y 0).val = 2000 * t.val + (y 0).val; omega
  | ⟨1, _⟩ => show win3_7.index t (1 : Fin 2) * 128 + 1 * (y 1).val = (y 1).val; omega

/-- What point t writes back to output window 7 is rows 2000·t … of the layer function of the entry arrays: every
    operation of the layer acts row by row, so the rows of the result are the result on the rows. -/
theorem flushed_eq7 (c : Dev nD) (t : Fin cfg3.N) :
    (dat3 V c).flushed 7 t = ((cfg3.win 7).blk t).view.read (Elt Ideal)
      (relu (rowBias (rowScale (V c main_v51) (V c main_v16)) (V c main_v52))) := by
  show (cfg3.win 7).cut (grid3.coords t) ((dat3 V c).after 7 t) = _
  rw [after3_7]
  unfold out3_7
  rw [View.canon_unit_zero hz]
  simp only [View.ld_unit_zero (S := S2000x128) hz, View.ld_unit_zero (S := S2000x1) hz, View.ld_unit_zero (S := S1x128) hz, View.ld_unit_zero (S := S128x64) hz, View.ld_unit_zero (S := S1x64) hz, View.ld_unit_zero (S := S64x64) hz]
  rw [blockOut7]
  simp only [rows_product, rows_rowScale, rows_rowBias, rows_relu]
  rw [← block0 V c t, ← block1 V c t, ← block2 V c t]
  exact payload1_eq _ _ _

/-- An index of output window 7's array is in point t's block iff each coordinate is in the block's range. -/
theorem mem_blk7 (t : Fin cfg3.N) (i : S50000x128.Idx) :
    i ∈ ((cfg3.win 7).blk t).view.set ↔ ∀ a : Fin 2, win3_7.index t a * S2000x128.size a ≤ (i a).val ∧ (i a).val < win3_7.index t a * S2000x128.size a + S2000x128.size a := by
  show i ∈ ((View.whole main_v55_0).slice (win3_7.rect t)).set ↔ _
  rw [View.set_slice_whole, Rect.mem_set_unit]
  exact Iff.rfl

/-- Every index of output window 7's array is in some point's block: the point of its row's quotient by 2000. -/
theorem cover7 (i : S50000x128.Idx) : ∃ t : Fin cfg3.N, (cfg3.win 7).flush t = true ∧ i ∈ ((cfg3.win 7).blk t).view.set := by
  have hi0 : (i 0).val < 50000 := (i 0).isLt
  have hi1 : (i 1).val < 128 := (i 1).isLt
  let t : Fin cfg3.N := ⟨(i 0).val / 2000, by show (i 0).val / 2000 < 25; omega⟩
  obtain ⟨e0, e1⟩ := idx7 t
  have ht : t.val = (i 0).val / 2000 := rfl
  refine ⟨t, flush3_7 t, ?_⟩
  rw [mem_blk7]
  intro a
  match a with
  | ⟨0, _⟩ => show win3_7.index t (0 : Fin 2) * 2000 ≤ (i 0).val ∧ (i 0).val < win3_7.index t (0 : Fin 2) * 2000 + 2000; omega
  | ⟨1, _⟩ => show win3_7.index t (1 : Fin 2) * 128 ≤ (i 1).val ∧ (i 1).val < win3_7.index t (1 : Fin 2) * 128 + 128; omega

/-- THE REGION'S FIRST VALUE: the array of the last hidden features ends as relu (agg ⊙ din + b). -/
theorem value7 (c : Dev nD) :
    (dat3 V c).arrAt 7 cfg3.N = relu (rowBias (rowScale (V c main_v51) (V c main_v16)) (V c main_v52)) :=
  (dat3 V c).arrAt_eq_of_cover 7 _ (fun t _ => flushed_eq7 V c t) cover7

/-- Output window 8's block at point t of any array is that array's rows 2000·t … 2000·t + 1999. -/
theorem blockOut8 (t : Fin cfg3.N) (A : Mat 50000 64) : ((cfg3.win 8).blk t).view.read (Elt Ideal) A = rows (row t) A := by
  obtain ⟨e0, e1⟩ := idx8 t
  funext y
  show A (((cfg3.win 8).blk t).view.emb y) = A (ix2 (row t (y 0)) (y 1))
  refine congrArg _ (funext fun a => Fin.ext ?_)
  match a with
  | ⟨0, _⟩ => show win3_8.index t (0 : Fin 2) * 2000 + 1 * (y 0).val = 2000 * t.val + (y 0).val; omega
  | ⟨1, _⟩ => show win3_8.index t (1 : Fin 2) * 64 + 1 * (y 1).val = (y 1).val; omega

/-- What point t writes back to output window 8 is rows 2000·t … of the layer function of the entry arrays: every
    operation of the layer acts row by row, so the rows of the result are the result on the rows. -/
theorem flushed_eq8 (c : Dev nD) (t : Fin cfg3.N) :
    (dat3 V c).flushed 8 t = ((cfg3.win 8).blk t).view.read (Elt Ideal)
      (rowBias (product (relu (rowBias (product (relu (rowBias (rowScale (V c main_v51) (V c main_v16)) (V c main_v52))) (V c main_arg8)) (V c main_v53))) (V c main_arg10)) (V c main_v54)) := by
  show (cfg3.win 8).cut (grid3.coords t) ((dat3 V c).after 8 t) = _
  rw [after3_8]
  unfold out3_8
  rw [View.canon_unit_zero hz]
  simp only [View.ld_unit_zero (S := S2000x128) hz, View.ld_unit_zero (S := S2000x1) hz, View.ld_unit_zero (S := S1x128) hz, View.ld_unit_zero (S := S128x64) hz, View.ld_unit_zero (S := S1x64) hz, View.ld_unit_zero (S := S64x64) hz]
  rw [blockOut8]
  simp only [rows_product, rows_rowScale, rows_rowBias, rows_relu]
  rw [← block0 V c t, ← block1 V c t, ← block2 V c t, ← block3 V c t, ← block4 V c t, ← block5 V c t, ← block6 V c t]
  exact payload2_eq _ _ _ _ _ _ _

/-- An index of output window 8's array is in point t's block iff each coordinate is in the block's range. -/
theorem mem_blk8 (t : Fin cfg3.N) (i : S50000x64.Idx) :
    i ∈ ((cfg3.win 8).blk t).view.set ↔ ∀ a : Fin 2, win3_8.index t a * S2000x64.size a ≤ (i a).val ∧ (i a).val < win3_8.index t a * S2000x64.size a + S2000x64.size a := by
  show i ∈ ((View.whole main_v55_1).slice (win3_8.rect t)).set ↔ _
  rw [View.set_slice_whole, Rect.mem_set_unit]
  exact Iff.rfl

/-- Every index of output window 8's array is in some point's block: the point of its row's quotient by 2000. -/
theorem cover8 (i : S50000x64.Idx) : ∃ t : Fin cfg3.N, (cfg3.win 8).flush t = true ∧ i ∈ ((cfg3.win 8).blk t).view.set := by
  have hi0 : (i 0).val < 50000 := (i 0).isLt
  have hi1 : (i 1).val < 64 := (i 1).isLt
  let t : Fin cfg3.N := ⟨(i 0).val / 2000, by show (i 0).val / 2000 < 25; omega⟩
  obtain ⟨e0, e1⟩ := idx8 t
  have ht : t.val = (i 0).val / 2000 := rfl
  refine ⟨t, flush3_8 t, ?_⟩
  rw [mem_blk8]
  intro a
  match a with
  | ⟨0, _⟩ => show win3_8.index t (0 : Fin 2) * 2000 ≤ (i 0).val ∧ (i 0).val < win3_8.index t (0 : Fin 2) * 2000 + 2000; omega
  | ⟨1, _⟩ => show win3_8.index t (1 : Fin 2) * 64 ≤ (i 1).val ∧ (i 1).val < win3_8.index t (1 : Fin 2) * 64 + 64; omega

/-- THE REGION'S SECOND VALUE: the output array ends as relu (h · M₁ + c₁) · M₂ + c₂ of the last hidden features h. -/
theorem value8 (c : Dev nD) :
    (dat3 V c).arrAt 8 cfg3.N = rowBias (product (relu (rowBias (product (relu (rowBias (rowScale (V c main_v51) (V c main_v16)) (V c main_v52))) (V c main_arg8)) (V c main_v53))) (V c main_arg10)) (V c main_v54) :=
  (dat3 V c).arrAt_eq_of_cover 8 _ (fun t _ => flushed_eq8 V c t) cover8

end Cert.KernelIdeal.Layer3

end
-- ==== Proof.Spec.lean ====
/-
  The network as one function of its twelve inputs, on exact values: three graph-convolution layers with symmetric
  degree normalisation and a two-layer head. With E the edge list, src and dst its two rows, dout = (max 1 outdeg)^(-1/2)
  and din = (max 1 indeg)^(-1/2) as columns, and A the aggregation (gather the rows at the edges' sources, add them up
  at the edges' targets), one layer is  h ↦ relu (A ((h ⊙ dout) · W) ⊙ din + b). The degree counts, the aggregation
  and the wrapping of negative indices are the host's own operations, carried here as they are printed and never opened;
  the dense part is written with the four row-wise operations of the general lemmas.
-/
import proofs.«162830_j76012331205027_1_alg».proof.Proof.Gen.ReferenceIdeal
import proofs.«162830_j76012331205027_1_alg».proof.Proof.LibGraphLayer

noncomputable section

namespace Cert.Spec

open Cert.ReferenceIdeal Cert.ReferenceIdeal.Gen Idealize.ShloMosaic Idealize.ShloMosaic.TcCoe Idealize.ShloMosaic.GraphLayer

/-- The edge list: two rows of 800000 node indices. -/
abbrev Edges := (⟨S2x800000, .i32⟩ : BufTy).Contents (Elt Ideal)
abbrev Nodes := (⟨S800000, .i32⟩ : BufTy).Contents (Elt Ideal)
abbrev Vec256 := (⟨S256, .f32⟩ : BufTy).Contents (Elt Ideal)
abbrev Vec128 := (⟨S128, .f32⟩ : BufTy).Contents (Elt Ideal)
abbrev Vec64 := (⟨S64, .f32⟩ : BufTy).Contents (Elt Ideal)

/-- The edges' sources. -/
def src (e : Edges) : Nodes := shapeCast _ (extractStridedSlice S1x800000 ![0, 0] e slices_S2x800000_S1x800000_0_0) shapeCasts_S1x800000_S800000
/-- The edges' targets. -/
def dst (e : Edges) : Nodes := shapeCast _ (extractStridedSlice S1x800000 ![1, 0] e slices_S2x800000_S1x800000_1_0) shapeCasts_S1x800000_S800000

/-- (max 1 (the number of edges with that end at the node))^(-1/2), as a column. -/
def degScale (s : Nodes) : Mat 50000 1 :=
  broadcastInDim S50000x1 ![0] bcast_S50000_S50000x1_0 (Host.rsqrt (maximumf (broadcastInDim S50000 ![] bcast_S_S50000 (id (constant S_ .f32 0x3F800000#32))) (Host.scatterAdd scatter_S50000_S800000x1_S800000_n_0_0_1 (broadcastInDim S50000 ![] bcast_S_S50000 (constant S_ .f32 0x00000000#32)) (broadcastInDim S800000x1 ![0] bcast_S800000_S800000x1_0 s) (broadcastInDim S800000 ![] bcast_S_S800000 (constant S_ .f32 0x3F800000#32)))))

/-- The sources as gather indices: a negative index counts from the end. -/
def gatherIdx (e : Edges) : (⟨S800000x1, .i32⟩ : BufTy).Contents (Elt Ideal) :=
  broadcastInDim S800000x1 ![0] bcast_S800000_S800000x1_0 (select (cmpi .slt (src e) (broadcastInDim S800000 ![] bcast_S_S800000 (constantI S_ 32 0#32))) (addi (src e) (broadcastInDim S800000 ![] bcast_S_S800000 (constantI S_ 32 50000#32))) (src e))

/-- The aggregation over the edges of 256-wide rows: gathered at the sources, added up at the targets. -/
def aggregate256 (e : Edges) (h : Mat 50000 256) : Mat 50000 256 :=
  Host.scatterAdd scatter_S50000x256_S800000x1_S800000x256_1_0_0_1 (broadcastInDim S50000x256 ![] bcast_S_S50000x256 (constant S_ .f32 0x00000000#32)) (broadcastInDim S800000x1 ![0] bcast_S800000_S800000x1_0 (dst e)) (Host.gather gather_S50000x256_S800000x1_S800000x256_1_0_n_n_0_1_1256 h (gatherIdx e))
/-- The aggregation over the edges of 128-wide rows. -/
def aggregate128 (e : Edges) (h : Mat 50000 128) : Mat 50000 128 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 (dst e)) (Host.gather gather_S50000x128_S800000x1_S800000x128_1_0_n_n_0_1_1128 h (gatherIdx e))

/-- A bias vector as a one-row matrix. -/
def row256 (b : Vec256) : Mat 1 256 := broadcastInDim S1x256 ![1] bcast_S256_S1x256_1 b
def row128 (b : Vec128) : Mat 1 128 := broadcastInDim S1x128 ![1] bcast_S128_S1x128_1 b
def row64 (b : Vec64) : Mat 1 64 := broadcastInDim S1x64 ![1] bcast_S64_S1x64_1 b

variable (x : Mat 50000 256) (e : Edges) (W1 : Mat 256 256) (b1 : Vec256) (W2 : Mat 256 256) (b2 : Vec256)
  (W3 : Mat 256 128) (b3 : Vec128) (M1 : Mat 128 64) (c1 : Vec64) (M2 : Mat 64 64) (c2 : Vec64)

/-- The first layer's dense transform: (x ⊙ dout) · W₁. -/
def lin1 : Mat 50000 256 := product (rowScale x (degScale (src e))) W1
/-- The first layer's activation fused with the second's dense transform. -/
def lin2 : Mat 50000 256 :=
  product (rowScale (relu (rowBias (rowScale (aggregate256 e (lin1 x e W1)) (degScale (dst e))) (row256 b1))) (degScale (src e))) W2
/-- The second layer's activation fused with the third's dense transform. -/
def lin3 : Mat 50000 128 :=
  product (rowScale (relu (rowBias (rowScale (aggregate256 e (lin2 x e W1 b1 W2)) (degScale (dst e))) (row256 b2))) (degScale (src e))) W3
/-- The last hidden features: the third layer's activation. -/
def hLast : Mat 50000 128 :=
  relu (rowBias (rowScale (aggregate128 e (lin3 x e W1 b1 W2 b2 W3)) (degScale (dst e))) (row128 b3))
/-- The output: the two-layer head on the last hidden features. -/
def out : Mat 50000 64 :=
  rowBias (product (relu (rowBias (product (hLast x e W1 b1 W2 b2 W3 b3) M1) (row64 c1))) M2) (row64 c2)

end Cert.Spec

end
-- ==== Proof.KernelCarry.lean ====
/- What the long-lived buffers of the kernel program hold at each boundary between @main's segments: the arguments what
   they held at launch, the two rows of the edge list and the two degree columns what the first host stretches computed.
   No later host operation writes any of them, and a region either does not touch one or stages it through an input
   window, which leaves its array as entered. -/
import proofs.«162830_j76012331205027_1_alg».proof.Proof.Gen.KernelIdeal.Frame
import proofs.«162830_j76012331205027_1_alg».proof.Proof.Spec
import Idealize.ShloMosaic.Lib.StableHlo.Run

set_option maxRecDepth 16384
-- one declaration at a time: each fact walks a fold of host operations
set_option Elab.async false

noncomputable section

namespace Cert.KernelIdeal.Carry

open Cert.KernelIdeal Cert.KernelIdeal.Gen Idealize.ShloMosaic Idealize.ShloMosaic.TcCoe Idealize.SL.Sem Idealize.ShloMosaic.StableHlo
open Idealize.ShloMosaic.Pipeline (Dat)
open Idealize.ShloMosaic.GraphLayer Cert.Spec

variable (m : (ℓ : Loc nD τ sig) → Buf (Elt Ideal) ℓ) (ρ : Dev nD → PrngReg)

/-! ## main_arg0 -/

theorem W5_arg0 (c : Dev nD) : W5 m ρ c (Proc.devRef .tc main_arg0) = m ((c : Thread nD τ).loc main_arg0) := by
  show StableHlo.after hostOps0_4 (StableHlo.after hostOps0_3 (StableHlo.after hostOps0_2 (StableHlo.after hostOps0_1 (StableHlo.after hostOps0 (W0 m ρ c))))) (Proc.devRef .tc main_arg0) = _
  dsimp only [hostOps0, hostOps0_1, hostOps0_2, hostOps0_3, hostOps0_4]
  after_results_simp
  all_goals rfl

/-! ## main_arg2 -/

theorem W5_arg2 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) (Proc.devRef .tc main_arg2) = _
  dsimp only [hostOps0, hostOps0_1, hostOps0_2, hostOps0_3, hostOps0_4]
  after_results_simp
  all_goals rfl

/-! ## main_arg3 -/

theorem W5_arg3 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  dsimp only [hostOps0, hostOps0_1, hostOps0_2, hostOps0_3, hostOps0_4]
  after_results_simp
  all_goals rfl
theorem W6_arg3 (c : Dev nD) : W6 m ρ c (Proc.devRef .tc main_arg3) = m ((c : Thread nD τ).loc main_arg3) :=
  (W6_of_ne m ρ c main_arg3 (by decide)).trans (W5_arg3 m ρ c)

/-! ## main_arg4 -/

theorem W5_arg4 (c : Dev nD) : W5 m ρ c (Proc.devRef .tc main_arg4) = m ((c : Thread nD τ).loc main_arg4) := by
  show StableHlo.after hostOps0_4 (StableHlo.after hostOps0_3 (StableHlo.after hostOps0_2 (StableHlo.after hostOps0_1 (StableHlo.after hostOps0 (W0 m ρ c))))) (Proc.devRef .tc main_arg4) = _
  dsimp only [hostOps0, hostOps0_1, hostOps0_2, hostOps0_3, hostOps0_4]
  after_results_simp
  all_goals rfl
theorem W6_arg4 (c : Dev nD) : W6 m ρ c (Proc.devRef .tc main_arg4) = m ((c : Thread nD τ).loc main_arg4) :=
  (W6_of_ne m ρ c main_arg4 (by decide)).trans (W5_arg4 m ρ c)
theorem W7_arg4 (c : Dev nD) : W7 m ρ c (Proc.devRef .tc main_arg4) = m ((c : Thread nD τ).loc main_arg4) := by
  show StableHlo.after hostOps1 (W6 m ρ c) (Proc.devRef .tc main_arg4) = _
  dsimp only [hostOps1]
  after_results_simp
  exact W6_arg4 m ρ c

/-! ## main_arg5 -/

theorem W5_arg5 (c : Dev nD) : W5 m ρ c (Proc.devRef .tc main_arg5) = m ((c : Thread nD τ).loc main_arg5) := by
  show StableHlo.after hostOps0_4 (StableHlo.after hostOps0_3 (StableHlo.after hostOps0_2 (StableHlo.after hostOps0_1 (StableHlo.after hostOps0 (W0 m ρ c))))) (Proc.devRef .tc main_arg5) = _
  dsimp only [hostOps0, hostOps0_1, hostOps0_2, hostOps0_3, hostOps0_4]
  after_results_simp
  all_goals rfl
theorem W6_arg5 (c : Dev nD) : W6 m ρ c (Proc.devRef .tc main_arg5) = m ((c : Thread nD τ).loc main_arg5) :=
  (W6_of_ne m ρ c main_arg5 (by decide)).trans (W5_arg5 m ρ c)
theorem W7_arg5 (c : Dev nD) : W7 m ρ c (Proc.devRef .tc main_arg5) = m ((c : Thread nD τ).loc main_arg5) := by
  show StableHlo.after hostOps1 (W6 m ρ c) (Proc.devRef .tc main_arg5) = _
  dsimp only [hostOps1]
  after_results_simp
  exact W6_arg5 m ρ c
theorem W8_arg5 (c : Dev nD) : W8 m ρ c (Proc.devRef .tc main_arg5) = m ((c : Thread nD τ).loc main_arg5) :=
  (W8_of_ne m ρ c main_arg5 (by decide)).trans (W7_arg5 m ρ c)

/-! ## main_arg6 -/

theorem W5_arg6 (c : Dev nD) : W5 m ρ c (Proc.devRef .tc main_arg6) = m ((c : Thread nD τ).loc main_arg6) := by
  show StableHlo.after hostOps0_4 (StableHlo.after hostOps0_3 (StableHlo.after hostOps0_2 (StableHlo.after hostOps0_1 (StableHlo.after hostOps0 (W0 m ρ c))))) (Proc.devRef .tc main_arg6) = _
  dsimp only [hostOps0, hostOps0_1, hostOps0_2, hostOps0_3, hostOps0_4]
  after_results_simp
  all_goals rfl
theorem W6_arg6 (c : Dev nD) : W6 m ρ c (Proc.devRef .tc main_arg6) = m ((c : Thread nD τ).loc main_arg6) :=
  (W6_of_ne m ρ c main_arg6 (by decide)).trans (W5_arg6 m ρ c)
theorem W7_arg6 (c : Dev nD) : W7 m ρ c (Proc.devRef .tc main_arg6) = m ((c : Thread nD τ).loc main_arg6) := by
  show StableHlo.after hostOps1 (W6 m ρ c) (Proc.devRef .tc main_arg6) = _
  dsimp only [hostOps1]
  after_results_simp
  exact W6_arg6 m ρ c
theorem W8_arg6 (c : Dev nD) : W8 m ρ c (Proc.devRef .tc main_arg6) = m ((c : Thread nD τ).loc main_arg6) :=
  (W8_of_ne m ρ c main_arg6 (by decide)).trans (W7_arg6 m ρ c)
theorem W9_arg6 (c : Dev nD) : W9 m ρ c (Proc.devRef .tc main_arg6) = m ((c : Thread nD τ).loc main_arg6) := by
  show StableHlo.after hostOps2 (W8 m ρ c) (Proc.devRef .tc main_arg6) = _
  dsimp only [hostOps2]
  after_results_simp
  exact W8_arg6 m ρ c

/-! ## main_arg7 -/

theorem W5_arg7 (c : Dev nD) : W5 m ρ c (Proc.devRef .tc main_arg7) = m ((c : Thread nD τ).loc main_arg7) := by
  show StableHlo.after hostOps0_4 (StableHlo.after hostOps0_3 (StableHlo.after hostOps0_2 (StableHlo.after hostOps0_1 (StableHlo.after hostOps0 (W0 m ρ c))))) (Proc.devRef .tc main_arg7) = _
  dsimp only [hostOps0, hostOps0_1, hostOps0_2, hostOps0_3, hostOps0_4]
  after_results_simp
  all_goals rfl
theorem W6_arg7 (c : Dev nD) : W6 m ρ c (Proc.devRef .tc main_arg7) = m ((c : Thread nD τ).loc main_arg7) :=
  (W6_of_ne m ρ c main_arg7 (by decide)).trans (W5_arg7 m ρ c)
theorem W7_arg7 (c : Dev nD) : W7 m ρ c (Proc.devRef .tc main_arg7) = m ((c : Thread nD τ).loc main_arg7) := by
  show StableHlo.after hostOps1 (W6 m ρ c) (Proc.devRef .tc main_arg7) = _
  dsimp only [hostOps1]
  after_results_simp
  exact W6_arg7 m ρ c
theorem W8_arg7 (c : Dev nD) : W8 m ρ c (Proc.devRef .tc main_arg7) = m ((c : Thread nD τ).loc main_arg7) :=
  (W8_of_ne m ρ c main_arg7 (by decide)).trans (W7_arg7 m ρ c)
theorem W9_arg7 (c : Dev nD) : W9 m ρ c (Proc.devRef .tc main_arg7) = m ((c : Thread nD τ).loc main_arg7) := by
  show StableHlo.after hostOps2 (W8 m ρ c) (Proc.devRef .tc main_arg7) = _
  dsimp only [hostOps2]
  after_results_simp
  exact W8_arg7 m ρ c
theorem W10_arg7 (c : Dev nD) : W10 m ρ c (Proc.devRef .tc main_arg7) = m ((c : Thread nD τ).loc main_arg7) :=
  (W10_of_ne m ρ c main_arg7 (by decide)).trans (W9_arg7 m ρ c)

/-! ## main_arg8 -/

theorem W5_arg8 (c : Dev nD) : W5 m ρ c (Proc.devRef .tc main_arg8) = m ((c : Thread nD τ).loc main_arg8) := by
  show StableHlo.after hostOps0_4 (StableHlo.after hostOps0_3 (StableHlo.after hostOps0_2 (StableHlo.after hostOps0_1 (StableHlo.after hostOps0 (W0 m ρ c))))) (Proc.devRef .tc main_arg8) = _
  dsimp only [hostOps0, hostOps0_1, hostOps0_2, hostOps0_3, hostOps0_4]
  after_results_simp
  all_goals rfl
theorem W6_arg8 (c : Dev nD) : W6 m ρ c (Proc.devRef .tc main_arg8) = m ((c : Thread nD τ).loc main_arg8) :=
  (W6_of_ne m ρ c main_arg8 (by decide)).trans (W5_arg8 m ρ c)
theorem W7_arg8 (c : Dev nD) : W7 m ρ c (Proc.devRef .tc main_arg8) = m ((c : Thread nD τ).loc main_arg8) := by
  show StableHlo.after hostOps1 (W6 m ρ c) (Proc.devRef .tc main_arg8) = _
  dsimp only [hostOps1]
  after_results_simp
  exact W6_arg8 m ρ c
theorem W8_arg8 (c : Dev nD) : W8 m ρ c (Proc.devRef .tc main_arg8) = m ((c : Thread nD τ).loc main_arg8) :=
  (W8_of_ne m ρ c main_arg8 (by decide)).trans (W7_arg8 m ρ c)
theorem W9_arg8 (c : Dev nD) : W9 m ρ c (Proc.devRef .tc main_arg8) = m ((c : Thread nD τ).loc main_arg8) := by
  show StableHlo.after hostOps2 (W8 m ρ c) (Proc.devRef .tc main_arg8) = _
  dsimp only [hostOps2]
  after_results_simp
  exact W8_arg8 m ρ c
theorem W10_arg8 (c : Dev nD) : W10 m ρ c (Proc.devRef .tc main_arg8) = m ((c : Thread nD τ).loc main_arg8) :=
  (W10_of_ne m ρ c main_arg8 (by decide)).trans (W9_arg8 m ρ c)
theorem W11_arg8 (c : Dev nD) : W11 m ρ c (Proc.devRef .tc main_arg8) = m ((c : Thread nD τ).loc main_arg8) := by
  show StableHlo.after hostOps3 (W10 m ρ c) (Proc.devRef .tc main_arg8) = _
  dsimp only [hostOps3]
  after_results_simp
  exact W10_arg8 m ρ c

/-! ## main_arg9 -/

theorem W5_arg9 (c : Dev nD) : W5 m ρ c (Proc.devRef .tc main_arg9) = m ((c : Thread nD τ).loc main_arg9) := by
  show StableHlo.after hostOps0_4 (StableHlo.after hostOps0_3 (StableHlo.after hostOps0_2 (StableHlo.after hostOps0_1 (StableHlo.after hostOps0 (W0 m ρ c))))) (Proc.devRef .tc main_arg9) = _
  dsimp only [hostOps0, hostOps0_1, hostOps0_2, hostOps0_3, hostOps0_4]
  after_results_simp
  all_goals rfl
theorem W6_arg9 (c : Dev nD) : W6 m ρ c (Proc.devRef .tc main_arg9) = m ((c : Thread nD τ).loc main_arg9) :=
  (W6_of_ne m ρ c main_arg9 (by decide)).trans (W5_arg9 m ρ c)
theorem W7_arg9 (c : Dev nD) : W7 m ρ c (Proc.devRef .tc main_arg9) = m ((c : Thread nD τ).loc main_arg9) := by
  show StableHlo.after hostOps1 (W6 m ρ c) (Proc.devRef .tc main_arg9) = _
  dsimp only [hostOps1]
  after_results_simp
  exact W6_arg9 m ρ c
theorem W8_arg9 (c : Dev nD) : W8 m ρ c (Proc.devRef .tc main_arg9) = m ((c : Thread nD τ).loc main_arg9) :=
  (W8_of_ne m ρ c main_arg9 (by decide)).trans (W7_arg9 m ρ c)
theorem W9_arg9 (c : Dev nD) : W9 m ρ c (Proc.devRef .tc main_arg9) = m ((c : Thread nD τ).loc main_arg9) := by
  show StableHlo.after hostOps2 (W8 m ρ c) (Proc.devRef .tc main_arg9) = _
  dsimp only [hostOps2]
  after_results_simp
  exact W8_arg9 m ρ c
theorem W10_arg9 (c : Dev nD) : W10 m ρ c (Proc.devRef .tc main_arg9) = m ((c : Thread nD τ).loc main_arg9) :=
  (W10_of_ne m ρ c main_arg9 (by decide)).trans (W9_arg9 m ρ c)

/-! ## main_arg10 -/

theorem W5_arg10 (c : Dev nD) : W5 m ρ c (Proc.devRef .tc main_arg10) = m ((c : Thread nD τ).loc main_arg10) := by
  show StableHlo.after hostOps0_4 (StableHlo.after hostOps0_3 (StableHlo.after hostOps0_2 (StableHlo.after hostOps0_1 (StableHlo.after hostOps0 (W0 m ρ c))))) (Proc.devRef .tc main_arg10) = _
  dsimp only [hostOps0, hostOps0_1, hostOps0_2, hostOps0_3, hostOps0_4]
  after_results_simp
  all_goals rfl
theorem W6_arg10 (c : Dev nD) : W6 m ρ c (Proc.devRef .tc main_arg10) = m ((c : Thread nD τ).loc main_arg10) :=
  (W6_of_ne m ρ c main_arg10 (by decide)).trans (W5_arg10 m ρ c)
theorem W7_arg10 (c : Dev nD) : W7 m ρ c (Proc.devRef .tc main_arg10) = m ((c : Thread nD τ).loc main_arg10) := by
  show StableHlo.after hostOps1 (W6 m ρ c) (Proc.devRef .tc main_arg10) = _
  dsimp only [hostOps1]
  after_results_simp
  exact W6_arg10 m ρ c
theorem W8_arg10 (c : Dev nD) : W8 m ρ c (Proc.devRef .tc main_arg10) = m ((c : Thread nD τ).loc main_arg10) :=
  (W8_of_ne m ρ c main_arg10 (by decide)).trans (W7_arg10 m ρ c)
theorem W9_arg10 (c : Dev nD) : W9 m ρ c (Proc.devRef .tc main_arg10) = m ((c : Thread nD τ).loc main_arg10) := by
  show StableHlo.after hostOps2 (W8 m ρ c) (Proc.devRef .tc main_arg10) = _
  dsimp only [hostOps2]
  after_results_simp
  exact W8_arg10 m ρ c
theorem W10_arg10 (c : Dev nD) : W10 m ρ c (Proc.devRef .tc main_arg10) = m ((c : Thread nD τ).loc main_arg10) :=
  (W10_of_ne m ρ c main_arg10 (by decide)).trans (W9_arg10 m ρ c)
theorem W11_arg10 (c : Dev nD) : W11 m ρ c (Proc.devRef .tc main_arg10) = m ((c : Thread nD τ).loc main_arg10) := by
  show StableHlo.after hostOps3 (W10 m ρ c) (Proc.devRef .tc main_arg10) = _
  dsimp only [hostOps3]
  after_results_simp
  exact W10_arg10 m ρ c

/-! ## main_arg11 -/

theorem W5_arg11 (c : Dev nD) : W5 m ρ c (Proc.devRef .tc main_arg11) = m ((c : Thread nD τ).loc main_arg11) := by
  show StableHlo.after hostOps0_4 (StableHlo.after hostOps0_3 (StableHlo.after hostOps0_2 (StableHlo.after hostOps0_1 (StableHlo.after hostOps0 (W0 m ρ c))))) (Proc.devRef .tc main_arg11) = _
  dsimp only [hostOps0, hostOps0_1, hostOps0_2, hostOps0_3, hostOps0_4]
  after_results_simp
  all_goals rfl
theorem W6_arg11 (c : Dev nD) : W6 m ρ c (Proc.devRef .tc main_arg11) = m ((c : Thread nD τ).loc main_arg11) :=
  (W6_of_ne m ρ c main_arg11 (by decide)).trans (W5_arg11 m ρ c)
theorem W7_arg11 (c : Dev nD) : W7 m ρ c (Proc.devRef .tc main_arg11) = m ((c : Thread nD τ).loc main_arg11) := by
  show StableHlo.after hostOps1 (W6 m ρ c) (Proc.devRef .tc main_arg11) = _
  dsimp only [hostOps1]
  after_results_simp
  exact W6_arg11 m ρ c
theorem W8_arg11 (c : Dev nD) : W8 m ρ c (Proc.devRef .tc main_arg11) = m ((c : Thread nD τ).loc main_arg11) :=
  (W8_of_ne m ρ c main_arg11 (by decide)).trans (W7_arg11 m ρ c)
theorem W9_arg11 (c : Dev nD) : W9 m ρ c (Proc.devRef .tc main_arg11) = m ((c : Thread nD τ).loc main_arg11) := by
  show StableHlo.after hostOps2 (W8 m ρ c) (Proc.devRef .tc main_arg11) = _
  dsimp only [hostOps2]
  after_results_simp
  exact W8_arg11 m ρ c
theorem W10_arg11 (c : Dev nD) : W10 m ρ c (Proc.devRef .tc main_arg11) = m ((c : Thread nD τ).loc main_arg11) :=
  (W10_of_ne m ρ c main_arg11 (by decide)).trans (W9_arg11 m ρ c)

/-! ## main_v1 -/

theorem W5_v1 (c : Dev nD) : W5 m ρ c (Proc.devRef .tc main_v1) = src (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v1) = _
  dsimp only [hostOps0, hostOps0_1, hostOps0_2, hostOps0_3, hostOps0_4]
  after_results_simp
  all_goals rfl
theorem W6_v1 (c : Dev nD) : W6 m ρ c (Proc.devRef .tc main_v1) = src (m ((c : Thread nD τ).loc main_arg1)) :=
  (W6_of_ne m ρ c main_v1 (by decide)).trans (W5_v1 m ρ c)
theorem W7_v1 (c : Dev nD) : W7 m ρ c (Proc.devRef .tc main_v1) = src (m ((c : Thread nD τ).loc main_arg1)) := by
  show StableHlo.after hostOps1 (W6 m ρ c) (Proc.devRef .tc main_v1) = _
  dsimp only [hostOps1]
  after_results_simp
  exact W6_v1 m ρ c
theorem W8_v1 (c : Dev nD) : W8 m ρ c (Proc.devRef .tc main_v1) = src (m ((c : Thread nD τ).loc main_arg1)) :=
  (W8_of_ne m ρ c main_v1 (by decide)).trans (W7_v1 m ρ c)
theorem W9_v1 (c : Dev nD) : W9 m ρ c (Proc.devRef .tc main_v1) = src (m ((c : Thread nD τ).loc main_arg1)) := by
  show StableHlo.after hostOps2 (W8 m ρ c) (Proc.devRef .tc main_v1) = _
  dsimp only [hostOps2]
  after_results_simp
  exact W8_v1 m ρ c
theorem W10_v1 (c : Dev nD) : W10 m ρ c (Proc.devRef .tc main_v1) = src (m ((c : Thread nD τ).loc main_arg1)) :=
  (W10_of_ne m ρ c main_v1 (by decide)).trans (W9_v1 m ρ c)

/-! ## main_v3 -/

theorem W5_v3 (c : Dev nD) : W5 m ρ c (Proc.devRef .tc main_v3) = dst (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v3) = _
  dsimp only [hostOps0, hostOps0_1, hostOps0_2, hostOps0_3, hostOps0_4]
  after_results_simp
  all_goals rfl
theorem W6_v3 (c : Dev nD) : W6 m ρ c (Proc.devRef .tc main_v3) = dst (m ((c : Thread nD τ).loc main_arg1)) :=
  (W6_of_ne m ρ c main_v3 (by decide)).trans (W5_v3 m ρ c)
theorem W7_v3 (c : Dev nD) : W7 m ρ c (Proc.devRef .tc main_v3) = dst (m ((c : Thread nD τ).loc main_arg1)) := by
  show StableHlo.after hostOps1 (W6 m ρ c) (Proc.devRef .tc main_v3) = _
  dsimp only [hostOps1]
  after_results_simp
  exact W6_v3 m ρ c
theorem W8_v3 (c : Dev nD) : W8 m ρ c (Proc.devRef .tc main_v3) = dst (m ((c : Thread nD τ).loc main_arg1)) :=
  (W8_of_ne m ρ c main_v3 (by decide)).trans (W7_v3 m ρ c)
theorem W9_v3 (c : Dev nD) : W9 m ρ c (Proc.devRef .tc main_v3) = dst (m ((c : Thread nD τ).loc main_arg1)) := by
  show StableHlo.after hostOps2 (W8 m ρ c) (Proc.devRef .tc main_v3) = _
  dsimp only [hostOps2]
  after_results_simp
  exact W8_v3 m ρ c
theorem W10_v3 (c : Dev nD) : W10 m ρ c (Proc.devRef .tc main_v3) = dst (m ((c : Thread nD τ).loc main_arg1)) :=
  (W10_of_ne m ρ c main_v3 (by decide)).trans (W9_v3 m ρ c)

/-! ## main_v14 -/

theorem W5_v14 (c : Dev nD) : W5 m ρ c (Proc.devRef .tc main_v14) = degScale (src (m ((c : Thread nD τ).loc main_arg1))) := by
  show StableHlo.after hostOps0_4 (StableHlo.after hostOps0_3 (StableHlo.after hostOps0_2 (StableHlo.after hostOps0_1 (StableHlo.after hostOps0 (W0 m ρ c))))) (Proc.devRef .tc main_v14) = _
  dsimp only [hostOps0, hostOps0_1, hostOps0_2, hostOps0_3, hostOps0_4]
  after_results_simp
  unfold degScale src
  refine congrArg _ (congrArg _ ?_)
  show maximumf _ _ = maximumf _ _
  congr 1
theorem W6_v14 (c : Dev nD) : W6 m ρ c (Proc.devRef .tc main_v14) = degScale (src (m ((c : Thread nD τ).loc main_arg1))) :=
  (W6_arr m ρ c 1).trans (((dat0 (V5 m ρ) c).arrAt_in 1 rfl _).trans ((A_eq0 (V5 m ρ) c 1).trans (W5_v14 m ρ c)))
theorem W7_v14 (c : Dev nD) : W7 m ρ c (Proc.devRef .tc main_v14) = degScale (src (m ((c : Thread nD τ).loc main_arg1))) := by
  show StableHlo.after hostOps1 (W6 m ρ c) (Proc.devRef .tc main_v14) = _
  dsimp only [hostOps1]
  after_results_simp
  exact W6_v14 m ρ c
theorem W8_v14 (c : Dev nD) : W8 m ρ c (Proc.devRef .tc main_v14) = degScale (src (m ((c : Thread nD τ).loc main_arg1))) :=
  (W8_arr m ρ c 3).trans (((dat1 (V7 m ρ) c).arrAt_in 3 rfl _).trans ((A_eq1 (V7 m ρ) c 3).trans (W7_v14 m ρ c)))
theorem W9_v14 (c : Dev nD) : W9 m ρ c (Proc.devRef .tc main_v14) = degScale (src (m ((c : Thread nD τ).loc main_arg1))) := by
  show StableHlo.after hostOps2 (W8 m ρ c) (Proc.devRef .tc main_v14) = _
  dsimp only [hostOps2]
  after_results_simp
  exact W8_v14 m ρ c

/-! ## main_v16 -/

theorem W5_v16 (c : Dev nD) : W5 m ρ c (Proc.devRef .tc main_v16) = degScale (dst (m ((c : Thread nD τ).loc main_arg1))) := by
  show StableHlo.after hostOps0_4 (StableHlo.after hostOps0_3 (StableHlo.after hostOps0_2 (StableHlo.after hostOps0_1 (StableHlo.after hostOps0 (W0 m ρ c))))) (Proc.devRef .tc main_v16) = _
  dsimp only [hostOps0, hostOps0_1, hostOps0_2, hostOps0_3, hostOps0_4]
  after_results_simp
  unfold degScale dst
  refine congrArg _ (congrArg _ ?_)
  show maximumf _ _ = maximumf _ _
  congr 1
theorem W6_v16 (c : Dev nD) : W6 m ρ c (Proc.devRef .tc main_v16) = degScale (dst (m ((c : Thread nD τ).loc main_arg1))) :=
  (W6_of_ne m ρ c main_v16 (by decide)).trans (W5_v16 m ρ c)
theorem W7_v16 (c : Dev nD) : W7 m ρ c (Proc.devRef .tc main_v16) = degScale (dst (m ((c : Thread nD τ).loc main_arg1))) := by
  show StableHlo.after hostOps1 (W6 m ρ c) (Proc.devRef .tc main_v16) = _
  dsimp only [hostOps1]
  after_results_simp
  exact W6_v16 m ρ c
theorem W8_v16 (c : Dev nD) : W8 m ρ c (Proc.devRef .tc main_v16) = degScale (dst (m ((c : Thread nD τ).loc main_arg1))) :=
  (W8_arr m ρ c 1).trans (((dat1 (V7 m ρ) c).arrAt_in 1 rfl _).trans ((A_eq1 (V7 m ρ) c 1).trans (W7_v16 m ρ c)))
theorem W9_v16 (c : Dev nD) : W9 m ρ c (Proc.devRef .tc main_v16) = degScale (dst (m ((c : Thread nD τ).loc main_arg1))) := by
  show StableHlo.after hostOps2 (W8 m ρ c) (Proc.devRef .tc main_v16) = _
  dsimp only [hostOps2]
  after_results_simp
  exact W8_v16 m ρ c
theorem W10_v16 (c : Dev nD) : W10 m ρ c (Proc.devRef .tc main_v16) = degScale (dst (m ((c : Thread nD τ).loc main_arg1))) :=
  (W10_arr m ρ c 1).trans (((dat2 (V9 m ρ) c).arrAt_in 1 rfl _).trans ((A_eq2 (V9 m ρ) c 1).trans (W9_v16 m ρ c)))
theorem W11_v16 (c : Dev nD) : W11 m ρ c (Proc.devRef .tc main_v16) = degScale (dst (m ((c : Thread nD τ).loc main_arg1))) := by
  show StableHlo.after hostOps3 (W10 m ρ c) (Proc.devRef .tc main_v16) = _
  dsimp only [hostOps3]
  after_results_simp
  exact W10_v16 m ρ c

end Cert.KernelIdeal.Carry

end
-- ==== Proof.LibRowVector.lean ====
/-
  A general lemma. A vector of n entries laid out as a matrix of one row, either by a reshape or by a broadcast along
  dimension 1, is the same matrix: entry (0, q) is the vector's entry q.
-/
import Idealize.ShloMosaic.Lib.ValueIdx
import Idealize.ShloMosaic.Lib.ValueLayout
import Idealize.ShloMosaic.Lib.Pipeline.Value

namespace Idealize.ShloMosaic.RowVector

open Idealize.ShloMosaic Idealize.ShloMosaic.ValueIdx

/-- The reshape of a vector to one row is its broadcast along dimension 1. -/
theorem shapeCast_eq_broadcastInDim {α : Type} {n : ℕ} (b : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ b h = broadcastInDim ⟨2, ![1, n]⟩ ![1] h' b := by
  funext i
  obtain ⟨u, q, rfl⟩ : ∃ (u : Fin 1) (q : Fin n), i = ix2 u q := ⟨i 0, i 1, eq_ix2 i⟩
  rw [shapeCast_a_1a_apply]
  refine (broadcastInDim_apply ![1] h' b (ix2 u q) (ix1 q) fun ax => ?_).symm
  match ax with
  | ⟨0, _⟩ =>
    show q.val = if n = 1 then 0 else q.val
    split
    · have := q.isLt; omega
    · rfl

end Idealize.ShloMosaic.RowVector
-- ==== Proof.KernelChain.lean ====
/-
  The kernel program's two results are the network function of its arguments. @main alternates host stretches and
  pipelined regions; the buffer contents at each boundary are followed from the launch: the first stretches compute the
  two degree columns; each region leaves in its output array its layer function of what it found in its input arrays
  (the regions' value theorems, at the entry contents); each stretch between two regions aggregates the region's output
  over the edges (gather at the sources, add up at the targets) and lays the next bias out as a row.
-/
import proofs.«162830_j76012331205027_1_alg».proof.Proof.Gen.KernelIdeal.Frame
import proofs.«162830_j76012331205027_1_alg».proof.Proof.KernelLayer0
import proofs.«162830_j76012331205027_1_alg».proof.Proof.KernelLayer1
import proofs.«162830_j76012331205027_1_alg».proof.Proof.KernelLayer2
import proofs.«162830_j76012331205027_1_alg».proof.Proof.KernelLayer3
import proofs.«162830_j76012331205027_1_alg».proof.Proof.KernelCarry
import proofs.«162830_j76012331205027_1_alg».proof.Proof.LibRowVector
import proofs.«162830_j76012331205027_1_alg».proof.Proof.Spec
import Idealize.ShloMosaic.Lib.StableHlo.Run

set_option maxRecDepth 100000

noncomputable section

namespace Cert.KernelIdeal.Chain

open Cert.KernelIdeal Cert.KernelIdeal.Gen Idealize.ShloMosaic Idealize.ShloMosaic.TcCoe Idealize.SL.Sem Idealize.ShloMosaic.StableHlo
open Idealize.ShloMosaic.Pipeline (Dat)
open Idealize.ShloMosaic.GraphLayer Cert.Spec Cert.KernelIdeal.Carry

variable (m : (ℓ : Loc nD τ sig) → Buf (Elt Ideal) ℓ) (ρ : Dev nD → PrngReg)

/-! ## Layer 1 -/

/-- Region 0 leaves the first dense transform (x ⊙ dout) · W₁ in its output array. -/
theorem W6_v17 (c : Dev nD) : W6 m ρ c (Proc.devRef .tc main_v17) = lin1 (m ((c : Thread nD τ).loc main_arg0)) (m ((c : Thread nD τ).loc main_arg1)) (m ((c : Thread nD τ).loc main_arg2)) := by
  refine (W6_arr m ρ c 3).trans ((Layer0.value (V5 m ρ) c).trans ?_)
  rw [show V5 m ρ c main_arg0 = _ from W5_arg0 m ρ c, show V5 m ρ c main_v14 = _ from W5_v14 m ρ c,
    show V5 m ρ c main_arg2 = _ from W5_arg2 m ρ c]
  rfl

/-- The stretch after region 0 aggregates it over the edges. -/
theorem W7_v27 (c : Dev nD) : W7 m ρ c (Proc.devRef .tc main_v27) = aggregate256 (m ((c : Thread nD τ).loc main_arg1)) (lin1 (m ((c : Thread nD τ).loc main_arg0)) (m ((c : Thread nD τ).loc main_arg1)) (m ((c : Thread nD τ).loc main_arg2))) := by
  show StableHlo.after hostOps1 (W6 m ρ c) (Proc.devRef .tc main_v27) = _
  dsimp only [hostOps1]
  after_results_simp
  rw [W6_v17, W6_v1, W6_v3]
  rfl

/-- … and lays the first bias out as a row. -/
theorem W7_v28 (c : Dev nD) : W7 m ρ c (Proc.devRef .tc main_v28) = row256 (m ((c : Thread nD τ).loc main_arg3)) := by
  show StableHlo.after hostOps1 (W6 m ρ c) (Proc.devRef .tc main_v28) = _
  dsimp only [hostOps1]
  after_results_simp
  rw [W6_arg3]
  exact RowVector.shapeCast_eq_broadcastInDim _ _ _

/-! ## Layer 2 -/

/-- Region 1 leaves the first activation fused with the second dense transform. -/
theorem W8_v29 (c : Dev nD) : W8 m ρ c (Proc.devRef .tc main_v29) = lin2 (m ((c : Thread nD τ).loc main_arg0)) (m ((c : Thread nD τ).loc main_arg1)) (m ((c : Thread nD τ).loc main_arg2)) (m ((c : Thread nD τ).loc main_arg3)) (m ((c : Thread nD τ).loc main_arg4)) := by
  refine (W8_arr m ρ c 5).trans ((Layer1.value5 (V7 m ρ) c).trans ?_)
  rw [show V7 m ρ c main_v27 = _ from W7_v27 m ρ c, show V7 m ρ c main_v16 = _ from W7_v16 m ρ c,
    show V7 m ρ c main_v28 = _ from W7_v28 m ρ c, show V7 m ρ c main_v14 = _ from W7_v14 m ρ c,
    show V7 m ρ c main_arg4 = _ from W7_arg4 m ρ c]
  rfl

theorem W9_v39 (c : Dev nD) : W9 m ρ c (Proc.devRef .tc main_v39) = aggregate256 (m ((c : Thread nD τ).loc main_arg1)) (lin2 (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps2 (W8 m ρ c) (Proc.devRef .tc main_v39) = _
  dsimp only [hostOps2]
  after_results_simp
  rw [W8_v29, W8_v1, W8_v3]
  rfl

theorem W9_v40 (c : Dev nD) : W9 m ρ c (Proc.devRef .tc main_v40) = row256 (m ((c : Thread nD τ).loc main_arg5)) := by
  show StableHlo.after hostOps2 (W8 m ρ c) (Proc.devRef .tc main_v40) = _
  dsimp only [hostOps2]
  after_results_simp
  rw [W8_arg5]
  exact RowVector.shapeCast_eq_broadcastInDim _ _ _

/-! ## Layer 3 -/

/-- Region 2 leaves the second activation fused with the third dense transform. -/
theorem W10_v41 (c : Dev nD) : W10 m ρ c (Proc.devRef .tc main_v41) = lin3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 5).trans ((Layer2.value5 (V9 m ρ) c).trans ?_)
  rw [show V9 m ρ c main_v39 = _ from W9_v39 m ρ c, show V9 m ρ c main_v16 = _ from W9_v16 m ρ c,
    show V9 m ρ c main_v40 = _ from W9_v40 m ρ c, show V9 m ρ c main_v14 = _ from W9_v14 m ρ c,
    show V9 m ρ c main_arg6 = _ from W9_arg6 m ρ c]
  rfl

theorem W11_v51 (c : Dev nD) : W11 m ρ c (Proc.devRef .tc main_v51) = aggregate128 (m ((c : Thread nD τ).loc main_arg1)) (lin3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show StableHlo.after hostOps3 (W10 m ρ c) (Proc.devRef .tc main_v51) = _
  dsimp only [hostOps3]
  after_results_simp
  rw [W10_v41, W10_v1, W10_v3]
  rfl

theorem W11_v52 (c : Dev nD) : W11 m ρ c (Proc.devRef .tc main_v52) = row128 (m ((c : Thread nD τ).loc main_arg7)) := by
  show StableHlo.after hostOps3 (W10 m ρ c) (Proc.devRef .tc main_v52) = _
  dsimp only [hostOps3]
  after_results_simp
  rw [W10_arg7]
  exact RowVector.shapeCast_eq_broadcastInDim _ _ _

theorem W11_v53 (c : Dev nD) : W11 m ρ c (Proc.devRef .tc main_v53) = row64 (m ((c : Thread nD τ).loc main_arg9)) := by
  show StableHlo.after hostOps3 (W10 m ρ c) (Proc.devRef .tc main_v53) = _
  dsimp only [hostOps3]
  after_results_simp
  rw [W10_arg9]
  exact RowVector.shapeCast_eq_broadcastInDim _ _ _

theorem W11_v54 (c : Dev nD) : W11 m ρ c (Proc.devRef .tc main_v54) = row64 (m ((c : Thread nD τ).loc main_arg11)) := by
  show StableHlo.after hostOps3 (W10 m ρ c) (Proc.devRef .tc main_v54) = _
  dsimp only [hostOps3]
  after_results_simp
  rw [W10_arg11]
  exact RowVector.shapeCast_eq_broadcastInDim _ _ _

/-! ## The results -/

/-- Region 3's first output array: the last hidden features. -/
theorem hLast_eq (c : Dev nD) : W12 m ρ c (Proc.devRef .tc main_v55_0) = hLast (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 7).trans ((Layer3.value7 (V11 m ρ) c).trans ?_)
  rw [show V11 m ρ c main_v51 = _ from W11_v51 m ρ c, show V11 m ρ c main_v16 = _ from W11_v16 m ρ c,
    show V11 m ρ c main_v52 = _ from W11_v52 m ρ c]
  rfl

/-- Region 3's second output array: the head's output. -/
theorem out_eq (c : Dev nD) : W12 m ρ c (Proc.devRef .tc main_v55_1) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W12_arr m ρ c 8).trans ((Layer3.value8 (V11 m ρ) c).trans ?_)
  rw [show V11 m ρ c main_v51 = _ from W11_v51 m ρ c, show V11 m ρ c main_v16 = _ from W11_v16 m ρ c,
    show V11 m ρ c main_v52 = _ from W11_v52 m ρ c, show V11 m ρ c main_arg8 = _ from W11_arg8 m ρ c,
    show V11 m ρ c main_v53 = _ from W11_v53 m ρ c, show V11 m ρ c main_arg10 = _ from W11_arg10 m ρ c,
    show V11 m ρ c main_v54 = _ from W11_v54 m ρ c]
  rfl

end Cert.KernelIdeal.Chain

end
-- ==== Proof.ReferenceValue.lean ====
/-
  The reference's run, read: its two results are the network function of its arguments. The reference spells each
  dense operation with the host's broadcasts in dimensions and contraction; each such spelling is the row-wise operation
  of the general lemmas, and what is left of the term is the network function's own text: the degree counts, the gathers
  and the scatter-adds are the same operations on both sides and are never opened.
-/
import proofs.«162830_j76012331205027_1_alg».proof.Proof.Gen.ReferenceIdeal.Run
import proofs.«162830_j76012331205027_1_alg».proof.Proof.Spec

set_option maxRecDepth 100000

noncomputable section

namespace Cert.ReferenceIdeal.RefValue

open Cert.ReferenceIdeal Cert.ReferenceIdeal.Gen Cert.ReferenceIdeal.Value Idealize.ShloMosaic Idealize.ShloMosaic.TcCoe Idealize.SL.Sem
open Idealize.ShloMosaic.GraphLayer Cert.Spec

variable (m : (ℓ : Loc nD τ sig) → Buf (Elt Ideal) ℓ)

/-- The four contractions are plain matrix products: no batch axis, the left operand contracted on its columns, the
    right on its rows. -/
theorem d1 : dot_S50000x256_S256x256_S50000x256_1_0_0_1_n_n = DotDims.plain 50000 256 256 := rfl
theorem d2 : dot_S50000x256_S256x128_S50000x128_1_0_0_1_n_n = DotDims.plain 50000 256 128 := rfl
theorem d3 : dot_S50000x128_S128x64_S50000x64_1_0_0_1_n_n = DotDims.plain 50000 128 64 := rfl
theorem d4 : dot_S50000x64_S64x64_S50000x64_1_0_0_1_n_n = DotDims.plain 50000 64 64 := rfl

/-- The reference's second result, the last hidden features, is the network function's. -/
theorem hLast_eq (c : Dev nD) :
    res_out1 (F := Ideal) m c = hLast (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold res_out1 res_main_v99 hLast lin3 lin2 lin1 aggregate128 aggregate256 gatherIdx degScale row256 row128 src dst
  simp only [d1, d2, d3, d4, dotGeneral_plain]
  repeat rw [mulf_broadcastInDim_col]
  repeat rw [addf_broadcastInDim_row]
  repeat rw [maximumf_broadcastInDim_zero]

/-- The reference's first result, the output, is the network function's. -/
theorem out_eq (c : Dev nD) :
    res_out0 (F := Ideal) m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold res_out0 res_main_v108 out hLast lin3 lin2 lin1 aggregate128 aggregate256 gatherIdx degScale row256 row128 row64 src dst
  simp only [d1, d2, d3, d4, dotGeneral_plain]
  repeat rw [mulf_broadcastInDim_col]
  repeat rw [addf_broadcastInDim_row]
  repeat rw [maximumf_broadcastInDim_zero]

end Cert.ReferenceIdeal.RefValue

end
-- ==== Proof.lean ====
/-
  The certificate of a three-layer graph-convolution network with a two-layer head, computed by a kernel program of
  four pipelined regions among host stretches, against its reference.

  Both programs compute, on exact values, the same function of the twelve inputs. With E the edge list, dout and din
  the columns (max 1 outdeg)^(-1/2) and (max 1 indeg)^(-1/2), and A the aggregation over the edges, one layer is
  h ↦ relu (A ((h ⊙ dout) · W) ⊙ din + b); the head is h ↦ relu (h · M₁ + c₁) · M₂ + c₂. The kernel program cuts the
  dense parts into four regions, each over 25 blocks of 2000 rows, and fuses a layer's activation with the next
  layer's dense transform; the reference computes every layer whole on the host. The two agree because every dense
  operation acts row by row (so a block of rows of a layer's result is the layer on that block of rows), a change of
  float format is the identity on exact values, and a product into a zero accumulator is the host's contraction. The
  degree counts, the gathers and the scatter-adds are the same host operations on both sides and are never opened; no
  law of the extended reals beyond these identities is used, so finiteness of the inputs is not needed.

  The three frames are the generated ones (the reference's is its generated run with the results dropped); the ideal
  pass rewrote nothing, so the kernel program is its own idealization.
-/
import proofs.«162830_j76012331205027_1_alg».proof.Defs
import proofs.«162830_j76012331205027_1_alg».proof.Proof.Gen.Kernel
import proofs.«162830_j76012331205027_1_alg».proof.Proof.Gen.Kernel.Frame
import proofs.«162830_j76012331205027_1_alg».proof.Proof.Gen.KernelIdeal
import proofs.«162830_j76012331205027_1_alg».proof.Proof.Gen.KernelIdeal.Frame
import proofs.«162830_j76012331205027_1_alg».proof.Proof.Gen.ReferenceIdeal
import proofs.«162830_j76012331205027_1_alg».proof.Proof.Gen.ReferenceIdeal.Run
import proofs.«162830_j76012331205027_1_alg».proof.Proof.Gen.Pre_finite_inputs
import proofs.«162830_j76012331205027_1_alg».proof.Proof.KernelRun
import proofs.«162830_j76012331205027_1_alg».proof.Proof.KernelChain
import proofs.«162830_j76012331205027_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- On exact values both programs end with the network function of the (agreeing) arguments in their result arrays:
    the kernel program by following its regions and host stretches from the launch, the reference by reading its run. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Spec.hLast (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.out_eq m ρ c), (h c).2.1.trans (Cert.KernelIdeal.Chain.hLast_eq m ρ c), (h c).2.2⟩)
      (Cert.KernelIdeal.Named.run_named m ρ)
  · refine (θ_run Cert.ReferenceIdeal.defs _ _).mono (fun r h c => ⟨?_, ?_, (h c).2.2⟩)
      (Cert.ReferenceIdeal.Value.run (F := Ideal) m' ρ')
    · refine (h c).1.trans ((Cert.ReferenceIdeal.RefValue.out_eq m' c).trans ?_)
      obtain ⟨e0, e1, e2, e3, e4, e5, e6, e7, e8, e9, e10, e11⟩ := hagree c
      rw [e0, e1, e2, e3, e4, e5, e6, e7, e8, e9, e10, e11]
    · refine (h c).2.1.trans ((Cert.ReferenceIdeal.RefValue.hLast_eq m' c).trans ?_)
      obtain ⟨e0, e1, e2, e3, e4, e5, e6, e7, -⟩ := hagree c
      rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
